-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x602 : Shape := ⟨2, ![100000, 602]⟩
abbrev S2x400000 : Shape := ⟨2, ![2, 400000]⟩
abbrev S602x256 : Shape := ⟨2, ![602, 256]⟩
abbrev S256 : Shape := ⟨1, ![256]⟩
abbrev S256x42 : Shape := ⟨2, ![256, 42]⟩
abbrev S42 : Shape := ⟨1, ![42]⟩
abbrev S_ : Shape := ⟨0, ![]⟩

class Facts : Prop where
  bcast_S_S100000x602 : S_.BroadcastsInDim S100000x602 (![] : Fin 0 → Fin S100000x602.rank)
  reducesTo_S100000x602_S_d0_1 : S100000x602.ReducesTo [0, 1] S_
  h_S_ : 0 < S_.numel
  bcast_S_S602x256 : S_.BroadcastsInDim S602x256 (![] : Fin 0 → Fin S602x256.rank)
  reducesTo_S602x256_S_d0_1 : S602x256.ReducesTo [0, 1] S_
  bcast_S_S256 : S_.BroadcastsInDim S256 (![] : Fin 0 → Fin S256.rank)
  reducesTo_S256_S_d0 : S256.ReducesTo [0] S_
  bcast_S_S256x42 : S_.BroadcastsInDim S256x42 (![] : Fin 0 → Fin S256x42.rank)
  reducesTo_S256x42_S_d0_1 : S256x42.ReducesTo [0, 1] S_
  bcast_S_S42 : S_.BroadcastsInDim S42 (![] : Fin 0 → Fin S42.rank)
  reducesTo_S42_S_d0 : S42.ReducesTo [0] S_

variable [Facts]

def fn_part1 {F : FTy → Type} [FloatOps F] (main_arg5 : FVec F S256x42 .f32) (main_arg6 : FVec F S42 .f32) (main_arg7 : FVec F S256x42 .f32) (main_v13 : IVec S_ 1) (main_v16 : IVec S602x256 1) : IVec S_ 1 :=
  let main_c_5 : IVec S_ 1 := constantI S_ 1 1#1
  let main_v17 : IVec S_ 1 := (fun x v => Host.reduce IntOp.andi x v reducesTo_S602x256_S_d0_1 h_S_) main_v16 main_c_5
  let main_v18 : IVec S_ 1 := andi main_v13 main_v17
  let main_v19 : FVec F S256x42 .f32 := Host.absf main_arg5
  let main_cst_6 : FVec F S_ .f32 := constant S_ .f32 0x7F800000#32
  let main_v20 : FVec F S256x42 .f32 := broadcastInDim S256x42 ![] bcast_S_S256x42 main_cst_6
  let main_v21 : IVec S256x42 1 := cmpf .olt main_v19 main_v20
  let main_c_7 : IVec S_ 1 := constantI S_ 1 1#1
  let main_v22 : IVec S_ 1 := (fun x v => Host.reduce IntOp.andi x v reducesTo_S256x42_S_d0_1 h_S_) main_v21 main_c_7
  let main_v23 : IVec S_ 1 := andi main_v18 main_v22
  let main_v24 : FVec F S42 .f32 := Host.absf main_arg6
  let main_cst_8 : FVec F S_ .f32 := constant S_ .f32 0x7F800000#32
  let main_v25 : FVec F S42 .f32 := broadcastInDim S42 ![] bcast_S_S42 main_cst_8
  let main_v26 : IVec S42 1 := cmpf .olt main_v24 main_v25
  let main_c_9 : IVec S_ 1 := constantI S_ 1 1#1
  let main_v27 : IVec S_ 1 := (fun x v => Host.reduce IntOp.andi x v reducesTo_S42_S_d0 h_S_) main_v26 main_c_9
  let main_v28 : IVec S_ 1 := andi main_v23 main_v27
  let main_v29 : FVec F S256x42 .f32 := Host.absf main_arg7
  let main_cst_10 : FVec F S_ .f32 := constant S_ .f32 0x7F800000#32
  let main_v30 : FVec F S256x42 .f32 := broadcastInDim S256x42 ![] bcast_S_S256x42 main_cst_10
  let main_v31 : IVec S256x42 1 := cmpf .olt main_v29 main_v30
  let main_c_11 : IVec S_ 1 := constantI S_ 1 1#1
  let main_v32 : IVec S_ 1 := (fun x v => Host.reduce IntOp.andi x v reducesTo_S256x42_S_d0_1 h_S_) main_v31 main_c_11
  let main_v33 : IVec S_ 1 := andi main_v28 main_v32
  main_v33

def fn {F : FTy → Type} [FloatOps F] (main_arg0 : FVec F S100000x602 .f32) (main_arg1 : IVec S2x400000 32) (main_arg2 : FVec F S602x256 .f32) (main_arg3 : FVec F S256 .f32) (main_arg4 : FVec F S602x256 .f32) (main_arg5 : FVec F S256x42 .f32) (main_arg6 : FVec F S42 .f32) (main_arg7 : FVec F S256x42 .f32) : IVec S_ 1 :=
  let main_v0 : FVec F S100000x602 .f32 := Host.absf main_arg0
  let main_cst : FVec F S_ .f32 := constant S_ .f32 0x7F800000#32
  let main_v1 : FVec F S100000x602 .f32 := broadcastInDim S100000x602 ![] bcast_S_S100000x602 main_cst
  let main_v2 : IVec S100000x602 1 := cmpf .olt main_v0 main_v1
  let main_c : IVec S_ 1 := constantI S_ 1 1#1
  let main_v3 : IVec S_ 1 := (fun x v => Host.reduce IntOp.andi x v reducesTo_S100000x602_S_d0_1 h_S_) main_v2 main_c
  let main_v4 : FVec F S602x256 .f32 := Host.absf main_arg2
  let main_cst_0 : FVec F S_ .f32 := constant S_ .f32 0x7F800000#32
  let main_v5 : FVec F S602x256 .f32 := broadcastInDim S602x256 ![] bcast_S_S602x256 main_cst_0
  let main_v6 : IVec S602x256 1 := cmpf .olt main_v4 main_v5
  let main_c_1 : IVec S_ 1 := constantI S_ 1 1#1
  let main_v7 : IVec S_ 1 := (fun x v => Host.reduce IntOp.andi x v reducesTo_S602x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S602x256 .f32 := Host.absf main_arg4
  let main_cst_4 : FVec F S_ .f32 := constant S_ .f32 0x7F800000#32
  let main_v15 : FVec F S602x256 .f32 := broadcastInDim S602x256 ![] bcast_S_S602x256 main_cst_4
  let main_v16 : IVec S602x256 1 := cmpf .olt main_v14 main_v15
  fn_part1 (F := F) main_arg5 main_arg6 main_arg7 main_v13 main_v16
-- ==== Kernel.lean ====
abbrev S100000x602 : Shape := ⟨2, ![100000, 602]⟩
abbrev S2x400000 : Shape := ⟨2, ![2, 400000]⟩
abbrev S602x256 : Shape := ⟨2, ![602, 256]⟩
abbrev S256 : Shape := ⟨1, ![256]⟩
abbrev S256x42 : Shape := ⟨2, ![256, 42]⟩
abbrev S42 : Shape := ⟨1, ![42]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x602 : Shape := ⟨2, ![400000, 602]⟩
abbrev S100000x1 : Shape := ⟨2, ![100000, 1]⟩
abbrev S1x256 : Shape := ⟨2, ![1, 256]⟩
abbrev S100000x256 : Shape := ⟨2, ![100000, 256]⟩
abbrev S2000x602 : Shape := ⟨2, ![2000, 602]⟩
abbrev S2000x256 : Shape := ⟨2, ![2000, 256]⟩
abbrev S400000x256 : Shape := ⟨2, ![400000, 256]⟩
abbrev S1x42 : Shape := ⟨2, ![1, 42]⟩
abbrev S100000x42 : Shape := ⟨2, ![100000, 42]⟩
abbrev S2000x42 : Shape := ⟨2, ![2000, 42]⟩
abbrev S2000 : Shape := ⟨1, ![2000]⟩
abbrev S2000x1 : Shape := ⟨2, ![2000, 1]⟩

abbrev nBuf : Space → Nat
  | .hbm => 72
  | .vmem => 18
  | .smem => 0
  | _ => 0

abbrev bufTy : (tb : Table) → Fin (tcTables nBuf tb) → BufTy
  | .hbm, ⟨0, _⟩ => ⟨S100000x602, .f32⟩
  | .hbm, ⟨1, _⟩ => ⟨S2x400000, .i32⟩
  | .hbm, ⟨2, _⟩ => ⟨S602x256, .f32⟩
  | .hbm, ⟨3, _⟩ => ⟨S256, .f32⟩
  | .hbm, ⟨4, _⟩ => ⟨S602x256, .f32⟩
  | .hbm, ⟨5, _⟩ => ⟨S256x42, .f32⟩
  | .hbm, ⟨6, _⟩ => ⟨S42, .f32⟩
  | .hbm, ⟨7, _⟩ => ⟨S256x42, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x602, .f32⟩
  | .hbm, ⟨21, _⟩ => ⟨S_, .f32⟩
  | .hbm, ⟨22, _⟩ => ⟨S100000x602, .f32⟩
  | .hbm, ⟨23, _⟩ => ⟨S400000x1, .i32⟩
  | .hbm, ⟨24, _⟩ => ⟨S100000x602, .f32⟩
  | .hbm, ⟨25, _⟩ => ⟨S_, .f32⟩
  | .hbm, ⟨26, _⟩ => ⟨S400000x1, .f32⟩
  | .hbm, ⟨27, _⟩ => ⟨S_, .f32⟩
  | .hbm, ⟨28, _⟩ => ⟨S100000x1, .f32⟩
  | .hbm, ⟨29, _⟩ => ⟨S400000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x602, .f32⟩
  | .hbm, ⟨35, _⟩ => ⟨S100000x602, .f32⟩
  | .hbm, ⟨36, _⟩ => ⟨S100000x602, .bf16⟩
  | .hbm, ⟨37, _⟩ => ⟨S100000x602, .bf16⟩
  | .hbm, ⟨38, _⟩ => ⟨S602x256, .bf16⟩
  | .hbm, ⟨39, _⟩ => ⟨S602x256, .bf16⟩
  | .hbm, ⟨40, _⟩ => ⟨S1x256, .f32⟩
  | .hbm, ⟨41, _⟩ => ⟨S100000x256, .bf16⟩
  | .hbm, ⟨42, _⟩ => ⟨S100000x256, .f32⟩
  | .hbm, ⟨43, _⟩ => ⟨S_, .i32⟩
  | .hbm, ⟨44, _⟩ => ⟨S400000, .i32⟩
  | .hbm, ⟨45, _⟩ => ⟨S400000, .i1⟩
  | .hbm, ⟨46, _⟩ => ⟨S_, .i32⟩
  | .hbm, ⟨47, _⟩ => ⟨S400000, .i32⟩
  | .hbm, ⟨48, _⟩ => ⟨S400000, .i32⟩
  | .hbm, ⟨49, _⟩ => ⟨S400000, .i32⟩
  | .hbm, ⟨50, _⟩ => ⟨S400000x1, .i32⟩
  | .hbm, ⟨51, _⟩ => ⟨S400000x256, .f32⟩
  | .hbm, ⟨52, _⟩ => ⟨S_, .f32⟩
  | .hbm, ⟨53, _⟩ => ⟨S100000x256, .f32⟩
  | .hbm, ⟨54, _⟩ => ⟨S400000x1, .i32⟩
  | .hbm, ⟨55, _⟩ => ⟨S100000x256, .f32⟩
  | .hbm, ⟨56, _⟩ => ⟨S_, .f32⟩
  | .hbm, ⟨57, _⟩ => ⟨S400000x1, .f32⟩
  | .hbm, ⟨58, _⟩ => ⟨S_, .f32⟩
  | .hbm, ⟨59, _⟩ => ⟨S100000x1, .f32⟩
  | .hbm, ⟨60, _⟩ => ⟨S400000x1, .i32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x256, .f32⟩
  | .hbm, ⟨66, _⟩ => ⟨S100000x256, .f32⟩
  | .hbm, ⟨67, _⟩ => ⟨S100000x256, .bf16⟩
  | .hbm, ⟨68, _⟩ => ⟨S256x42, .bf16⟩
  | .hbm, ⟨69, _⟩ => ⟨S256x42, .bf16⟩
  | .hbm, ⟨70, _⟩ => ⟨S1x42, .f32⟩
  | .hbm, ⟨71, _⟩ => ⟨S100000x42, .f32⟩
  | .local _ .vmem, ⟨0, _⟩ => ⟨S2000x602, .bf16⟩
  | .local _ .vmem, ⟨1, _⟩ => ⟨S2000x602, .bf16⟩
  | .local _ .vmem, ⟨2, _⟩ => ⟨S2000x602, .bf16⟩
  | .local _ .vmem, ⟨3, _⟩ => ⟨S2000x602, .bf16⟩
  | .local _ .vmem, ⟨4, _⟩ => ⟨S602x256, .bf16⟩
  | .local _ .vmem, ⟨5, _⟩ => ⟨S602x256, .bf16⟩
  | .local _ .vmem, ⟨6, _⟩ => ⟨S1x256, .f32⟩
  | .local _ .vmem, ⟨7, _⟩ => ⟨S2000x256, .bf16⟩
  | .local _ .vmem, ⟨8, _⟩ => ⟨S2000x256, .bf16⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S256x42, .bf16⟩
  | .local _ .vmem, ⟨14, _⟩ => ⟨S256x42, .bf16⟩
  | .local _ .vmem, ⟨15, _⟩ => ⟨S1x42, .f32⟩
  | .local _ .vmem, ⟨16, _⟩ => ⟨S2000x42, .f32⟩
  | .local _ .vmem, ⟨17, _⟩ => ⟨S2000x42, .f32⟩
  | _, _ => ⟨S100000x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x602 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x602 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S602x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S602x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x42 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x42 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x42 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x42 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x602 : S_.BroadcastsInDim S100000x602 (![] : Fin 0 → Fin S100000x602.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x602_0_1 : S100000x1.BroadcastsInDim S100000x602 (![0, 1] : Fin 2 → Fin S100000x602.rank)
  bitsLt_bf16_f32 : FTy.bits .bf16 < FTy.bits .f32
  shapeCasts_S256_S1x256 : S256.ShapeCasts S1x256
  inb_S2000x602_S2000x602_0_0 : ∀ a, (![0, 0] : Fin 2 → Nat) a + S2000x602.size a ≤ S2000x602.size a
  h_S2000x602 : 0 < S2000x602.numel
  shapeCasts_S2000x602_S2000x602 : S2000x602.ShapeCasts S2000x602
  inb_S602x256_S602x256_0_0 : ∀ a, (![0, 0] : Fin 2 → Nat) a + S602x256.size a ≤ S602x256.size a
  h_S602x256 : 0 < S602x256.numel
  shapeCasts_S602x256_S602x256 : S602x256.ShapeCasts S602x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S42_S1x42 : S42.ShapeCasts S1x42
  shapeCasts_S2000x256_S2000x256 : S2000x256.ShapeCasts S2000x256
  inb_S256x42_S256x42_0_0 : ∀ a, (![0, 0] : Fin 2 → Nat) a + S256x42.size a ≤ S256x42.size a
  h_S256x42 : 0 < S256x42.numel
  shapeCasts_S256x42_S256x42 : S256x42.ShapeCasts S256x42
  inb_S1x42_S1x42_0_0 : ∀ a, (![0, 0] : Fin 2 → Nat) a + S1x42.size a ≤ S1x42.size a
  h_S1x42 : 0 < S1x42.numel
  shapeCasts_S1x42_S1x42 : S1x42.ShapeCasts S1x42
  broadcasts_S1x42_S2000x42 : S1x42.Broadcasts S2000x42
  reduces_S2000x42_S2000 : S2000x42.Reduces [1] S2000
  shapeCasts_S2000_S2000x1 : S2000.ShapeCasts S2000x1
  broadcasts_S2000x1_S2000x42 : S2000x1.Broadcasts S2000x42
  inb_S2000x42_S2000x42_0_0 : ∀ a, (![0, 0] : Fin 2 → Nat) a + S2000x42.size a ≤ S2000x42.size a
  h_S2000x42 : 0 < S2000x42.numel
  gather_S100000x602_S400000x1_S400000x602_1_0_n_n_0_1_1602_wf : GatherDims.WF S100000x602 S400000x1 S400000x602 [1] [0] [] [0] [] 1 ![1, 602]
  scatter_S100000x602_S400000x1_S400000x602_1_0_0_1_wf : ScatterDims.WF S100000x602 S400000x1 S400000x602 [1] [0] [0] 1
  scatter_S100000x1_S400000x1_S400000x1_1_0_0_1_wf : ScatterDims.WF S100000x1 S400000x1 S400000x1 [1] [0] [0] 1
  dot_S2000x602_S602x256_S2000x256_1_0_0_1_n_n_wf : DotDims.WF S2000x602 S602x256 S2000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S2000x256_S256x42_S2000x42_1_0_0_1_n_n_wf : DotDims.WF S2000x256 S256x42 S2000x42 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x602.size a ≤ S100000x602.size a
  hwx0_0 : ∀ i : grid0.Coords, EltTy.bits .bf16 = 32 ∨ (Rect.block (s := S100000x602) S2000x602.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x602.size a ≤ S100000x602.size a
  hwx0_1 : ∀ i : grid0.Coords, EltTy.bits .bf16 = 32 ∨ (Rect.block (s := S100000x602) S2000x602.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S602x256.size a ≤ S602x256.size a
  hwx0_2 : ∀ i : grid0.Coords, EltTy.bits .bf16 = 32 ∨ (Rect.block (s := S602x256) S602x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S602x256.size a ≤ S602x256.size a
  hwx0_3 : ∀ i : grid0.Coords, EltTy.bits .bf16 = 32 ∨ (Rect.block (s := S602x256) S602x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .bf16 = 32 ∨ (Rect.block (s := S100000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .bf16 = 32 ∨ (Rect.block (s := S100000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .bf16 = 32 ∨ (Rect.block (s := S100000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x42.size a ≤ S256x42.size a
  hwx1_2 : ∀ i : grid1.Coords, EltTy.bits .bf16 = 32 ∨ (Rect.block (s := S256x42) S256x42.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x42.size a ≤ S256x42.size a
  hwx1_3 : ∀ i : grid1.Coords, EltTy.bits .bf16 = 32 ∨ (Rect.block (s := S256x42) S256x42.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x42.size a ≤ S1x42.size a
  hwx1_4 : ∀ i : grid1.Coords, EltTy.bits .f32 = 32 ∨ (Rect.block (s := S1x42) S1x42.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x42.size a ≤ S100000x42.size a
  hwx1_5 : ∀ i : grid1.Coords, EltTy.bits .f32 = 32 ∨ (Rect.block (s := S100000x42) S2000x42.size (cc1_transform_5 i) (hinb1_5 i)).WholeWords (EltTy.packing .f32)

variable [Facts₀]

def gather_S100000x602_S400000x1_S400000x602_1_0_n_n_0_1_1602 : GatherDims S100000x602 S400000x1 S400000x602 where
  offsetDims := [1]
  collapsedSliceDims := [0]
  operandBatchingDims := []
  startIndicesBatchingDims := []
  startIndexMap := [0]
  indexVectorDim := 1
  sliceSizes := ![1, 602]
  wf := gather_S100000x602_S400000x1_S400000x602_1_0_n_n_0_1_1602_wf
def scatter_S100000x602_S400000x1_S400000x602_1_0_0_1 : ScatterDims S100000x602 S400000x1 S400000x602 where
  updateWindowDims := [1]
  insertedWindowDims := [0]
  scatterDimsToOperandDims := [0]
  indexVectorDim := 1
  wf := scatter_S100000x602_S400000x1_S400000x602_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S2000x602_S602x256_S2000x256_1_0_0_1_n_n : DotDims S2000x602 S602x256 S2000x256 where
  lhsContracting := [1]
  rhsContracting := [0]
  lhsNonContracting := [0]
  rhsNonContracting := [1]
  lhsBatch := []
  rhsBatch := []
  wf := dot_S2000x602_S602x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S2000x256_S256x42_S2000x42_1_0_0_1_n_n : DotDims S2000x256 S256x42 S2000x42 where
  lhsContracting := [1]
  rhsContracting := [0]
  lhsNonContracting := [0]
  rhsNonContracting := [1]
  lhsBatch := []
  rhsBatch := []
  wf := dot_S2000x256_S256x42_S2000x42_1_0_0_1_n_n_wf

abbrev win0_0 : Pipeline.Window sig grid0 :=
  Pipeline.Window.ofSpec (Memref.whole main_v22) S2000x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2000x602.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S602x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S602x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S256x42.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S256x42.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x42.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x42.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x602 : Shape := ⟨2, ![100000, 602]⟩
abbrev S2x400000 : Shape := ⟨2, ![2, 400000]⟩
abbrev S602x256 : Shape := ⟨2, ![602, 256]⟩
abbrev S256 : Shape := ⟨1, ![256]⟩
abbrev S256x42 : Shape := ⟨2, ![256, 42]⟩
abbrev S42 : Shape := ⟨1, ![42]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x602 : Shape := ⟨2, ![400000, 602]⟩
abbrev S100000x1 : Shape := ⟨2, ![100000, 1]⟩
abbrev S100000x256 : Shape := ⟨2, ![100000, 256]⟩
abbrev S1x256 : Shape := ⟨2, ![1, 256]⟩
abbrev S400000x256 : Shape := ⟨2, ![400000, 256]⟩
abbrev S100000x42 : Shape := ⟨2, ![100000, 42]⟩
abbrev S1x42 : Shape := ⟨2, ![1, 42]⟩
abbrev S100000 : Shape := ⟨1, ![100000]⟩

abbrev nBuf : Space → Nat
  | .hbm => 90
  | .vmem => 0
  | .smem => 0
  | _ => 0

abbrev bufTy : (tb : Table) → Fin (tcTables nBuf tb) → BufTy
  | .hbm, ⟨0, _⟩ => ⟨S100000x602, .f32⟩
  | .hbm, ⟨1, _⟩ => ⟨S2x400000, .i32⟩
  | .hbm, ⟨2, _⟩ => ⟨S602x256, .f32⟩
  | .hbm, ⟨3, _⟩ => ⟨S256, .f32⟩
  | .hbm, ⟨4, _⟩ => ⟨S602x256, .f32⟩
  | .hbm, ⟨5, _⟩ => ⟨S256x42, .f32⟩
  | .hbm, ⟨6, _⟩ => ⟨S42, .f32⟩
  | .hbm, ⟨7, _⟩ => ⟨S256x42, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x602, .f32⟩
  | .hbm, ⟨21, _⟩ => ⟨S_, .f32⟩
  | .hbm, ⟨22, _⟩ => ⟨S100000x602, .f32⟩
  | .hbm, ⟨23, _⟩ => ⟨S400000x1, .i32⟩
  | .hbm, ⟨24, _⟩ => ⟨S100000x602, .f32⟩
  | .hbm, ⟨25, _⟩ => ⟨S_, .f32⟩
  | .hbm, ⟨26, _⟩ => ⟨S400000x1, .f32⟩
  | .hbm, ⟨27, _⟩ => ⟨S_, .f32⟩
  | .hbm, ⟨28, _⟩ => ⟨S100000x1, .f32⟩
  | .hbm, ⟨29, _⟩ => ⟨S400000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x602, .f32⟩
  | .hbm, ⟨35, _⟩ => ⟨S100000x602, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S_, .f32⟩
  | .hbm, ⟨43, _⟩ => ⟨S100000x256, .f32⟩
  | .hbm, ⟨44, _⟩ => ⟨S100000x256, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000x256, .f32⟩
  | .hbm, ⟨54, _⟩ => ⟨S_, .f32⟩
  | .hbm, ⟨55, _⟩ => ⟨S100000x256, .f32⟩
  | .hbm, ⟨56, _⟩ => ⟨S400000x1, .i32⟩
  | .hbm, ⟨57, _⟩ => ⟨S100000x256, .f32⟩
  | .hbm, ⟨58, _⟩ => ⟨S_, .f32⟩
  | .hbm, ⟨59, _⟩ => ⟨S400000x1, .f32⟩
  | .hbm, ⟨60, _⟩ => ⟨S_, .f32⟩
  | .hbm, ⟨61, _⟩ => ⟨S100000x1, .f32⟩
  | .hbm, ⟨62, _⟩ => ⟨S400000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x256, .f32⟩
  | .hbm, ⟨68, _⟩ => ⟨S100000x256, .f32⟩
  | .hbm, ⟨69, _⟩ => ⟨S100000x42, .f32⟩
  | .hbm, ⟨70, _⟩ => ⟨S1x42, .f32⟩
  | .hbm, ⟨71, _⟩ => ⟨S100000x42, .f32⟩
  | .hbm, ⟨72, _⟩ => ⟨S100000x42, .f32⟩
  | .hbm, ⟨73, _⟩ => ⟨S100000x42, .f32⟩
  | .hbm, ⟨74, _⟩ => ⟨S100000x42, .f32⟩
  | .hbm, ⟨75, _⟩ => ⟨S_, .f32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x42, .f32⟩
  | .hbm, ⟨82, _⟩ => ⟨S100000x42, .f32⟩
  | .hbm, ⟨83, _⟩ => ⟨S100000x42, .f32⟩
  | .hbm, ⟨84, _⟩ => ⟨S_, .f32⟩
  | .hbm, ⟨85, _⟩ => ⟨S100000, .f32⟩
  | .hbm, ⟨86, _⟩ => ⟨S100000x1, .f32⟩
  | .hbm, ⟨87, _⟩ => ⟨S100000x1, .f32⟩
  | .hbm, ⟨88, _⟩ => ⟨S100000x42, .f32⟩
  | .hbm, ⟨89, _⟩ => ⟨S100000x42, .f32⟩
  | _, _ => ⟨S100000x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_call1_cst_0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_cst_1 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_v53 : Ref sig .tc := ⟨.hbm, 89, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x602 : S_.BroadcastsInDim S100000x602 (![] : Fin 0 → Fin S100000x602.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x602_0_1 : S100000x1.BroadcastsInDim S100000x602 (![0, 1] : Fin 2 → Fin S100000x602.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S42_S1x42_1 : S42.BroadcastsInDim S1x42 (![1] : Fin 1 → Fin S1x42.rank)
  bcast_S1x42_S100000x42_0_1 : S1x42.BroadcastsInDim S100000x42 (![0, 1] : Fin 2 → Fin S100000x42.rank)
  reducesTo_S100000x42_S100000_d1 : S100000x42.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x42_0_1 : S100000x1.BroadcastsInDim S100000x42 (![0, 1] : Fin 2 → Fin S100000x42.rank)
  gather_S100000x602_S400000x1_S400000x602_1_0_n_n_0_1_1602_wf : GatherDims.WF S100000x602 S400000x1 S400000x602 [1] [0] [] [0] [] 1 ![1, 602]
  scatter_S100000x602_S400000x1_S400000x602_1_0_0_1_wf : ScatterDims.WF S100000x602 S400000x1 S400000x602 [1] [0] [0] 1
  scatter_S100000x1_S400000x1_S400000x1_1_0_0_1_wf : ScatterDims.WF S100000x1 S400000x1 S400000x1 [1] [0] [0] 1
  dot_S100000x602_S602x256_S100000x256_1_0_0_1_n_n_wf : DotDims.WF S100000x602 S602x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x42_S100000x42_1_0_0_1_n_n_wf : DotDims.WF S100000x256 S256x42 S100000x42 [1] [0] [0] [1] [] []

variable [Facts₀]

def gather_S100000x602_S400000x1_S400000x602_1_0_n_n_0_1_1602 : GatherDims S100000x602 S400000x1 S400000x602 where
  offsetDims := [1]
  collapsedSliceDims := [0]
  operandBatchingDims := []
  startIndicesBatchingDims := []
  startIndexMap := [0]
  indexVectorDim := 1
  sliceSizes := ![1, 602]
  wf := gather_S100000x602_S400000x1_S400000x602_1_0_n_n_0_1_1602_wf
def scatter_S100000x602_S400000x1_S400000x602_1_0_0_1 : ScatterDims S100000x602 S400000x1 S400000x602 where
  updateWindowDims := [1]
  insertedWindowDims := [0]
  scatterDimsToOperandDims := [0]
  indexVectorDim := 1
  wf := scatter_S100000x602_S400000x1_S400000x602_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S100000x602_S602x256_S100000x256_1_0_0_1_n_n : DotDims S100000x602 S602x256 S100000x256 where
  lhsContracting := [1]
  rhsContracting := [0]
  lhsNonContracting := [0]
  rhsNonContracting := [1]
  lhsBatch := []
  rhsBatch := []
  wf := dot_S100000x602_S602x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x42_S100000x42_1_0_0_1_n_n : DotDims S100000x256 S256x42 S100000x42 where
  lhsContracting := [1]
  rhsContracting := [0]
  lhsNonContracting := [0]
  rhsNonContracting := [1]
  lhsBatch := []
  rhsBatch := []
  wf := dot_S100000x256_S256x42_S100000x42_1_0_0_1_n_n_wf

class Facts : Prop extends Facts₀ where

variable [Facts]
-- ==== Proof.RefRunHand.lean ====
/-
  The reference program's run, read stretch by stretch: its 82 host operations cut into five consecutive stretches, each
  stretch's result buffer read as its stage of the arguments (the stage functions are the reading module's `val_`), the
  buffers a later stretch still reads shown untouched in between, and the five chained into the whole run.
-/
import proofs.«105512_j51118700757722_1_alg».proof.Proof.RefRead
import Idealize.ShloMosaic.Lib.StableHlo.Run
import Idealize.ShloMosaic.Lib.Pipeline.Frame

noncomputable section

namespace Cert.ReferenceIdeal.RunH

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## The five stretches -/

/-- The first stretch: the edge list split into sources and destinations, the features gathered along the sources and summed
    at the destinations, the in-degrees counted and clamped at one, and the quotient: the first neighbour mean. -/
abbrev s1 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 100000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S100000x602_S400000x1_S400000x602_1_0_n_n_0_1_1602 x i) : (⟨S100000x602, .f32⟩ : BufTy).Contents (Elt F) → (⟨S400000x1, .i32⟩ : BufTy).Contents (Elt F) → (⟨S400000x602, .f32⟩ : BufTy).Contents (Elt F)),
    nullary main_cst (constant S_ .f32 0x00000000#32),
    unary main_cst main_v11 (broadcastInDim S100000x602 ![] bcast_S_S100000x602 : (⟨S_, .f32⟩ : BufTy).Contents (Elt F) → (⟨S100000x602, .f32⟩ : BufTy).Contents (Elt F)),
    unary main_v3 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S100000x602_S400000x1_S400000x602_1_0_0_1 x i u) : (⟨S100000x602, .f32⟩ : BufTy).Contents (Elt F) → (⟨S400000x1, .i32⟩ : BufTy).Contents (Elt F) → (⟨S400000x602, .f32⟩ : BufTy).Contents (Elt F) → (⟨S100000x602, .f32⟩ : BufTy).Contents (Elt F)),
    nullary main_cst_1 (constant S_ .f32 0x3F800000#32),
    unary main_cst_1 main_v14 (broadcastInDim S400000x1 ![] bcast_S_S400000x1 : (⟨S_, .f32⟩ : BufTy).Contents (Elt F) → (⟨S400000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S400000x1 ![0] bcast_S400000_S400000x1_0 : (⟨S400000, .i32⟩ : BufTy).Contents (Elt F) → (⟨S400000x1, .i32⟩ : BufTy).Contents (Elt F)),
    ternary main_v15 main_v16 main_v14 main_v17 ((fun x i u => Host.scatterAdd scatter_S100000x1_S400000x1_S400000x1_1_0_0_1 x i u) : (⟨S100000x1, .f32⟩ : BufTy).Contents (Elt F) → (⟨S400000x1, .i32⟩ : BufTy).Contents (Elt F) → (⟨S400000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x602 ![0, 1] bcast_S100000x1_S100000x602_0_1 : (⟨S100000x1, .f32⟩ : BufTy).Contents (Elt F) → (⟨S100000x602, .f32⟩ : BufTy).Contents (Elt F)),
    binary main_v13 main_v20 main_v21 (Host.divf : (⟨S100000x602, .f32⟩ : BufTy).Contents (Elt F) → (⟨S100000x602, .f32⟩ : BufTy).Contents (Elt F) → (⟨S100000x602, .f32⟩ : BufTy).Contents (Elt F)) ]

/-- The second stretch: the hidden layer: the mean against the left weights, plus the bias, plus the nodes' own rows against the
    right weights, rectified. -/
abbrev s2 : List (HloOp τ sig (Elt F)) :=
  [ binary main_v21 main_arg2 main_v22 ((fun l r => Host.dotGeneral dot_S100000x602_S602x256_S100000x256_1_0_0_1_n_n none l r) : (⟨S100000x602, .f32⟩ : BufTy).Contents (Elt F) → (⟨S602x256, .f32⟩ : BufTy).Contents (Elt F) → (⟨S100000x256, .f32⟩ : BufTy).Contents (Elt F)),
    unary main_arg3 main_v23 (broadcastInDim S1x256 ![1] bcast_S256_S1x256_1 : (⟨S256, .f32⟩ : BufTy).Contents (Elt F) → (⟨S1x256, .f32⟩ : BufTy).Contents (Elt F)),
    unary main_v23 main_v24 (broadcastInDim S100000x256 ![0, 1] bcast_S1x256_S100000x256_0_1 : (⟨S1x256, .f32⟩ : BufTy).Contents (Elt F) → (⟨S100000x256, .f32⟩ : BufTy).Contents (Elt F)),
    binary main_v22 main_v24 main_v25 (addf : (⟨S100000x256, .f32⟩ : BufTy).Contents (Elt F) → (⟨S100000x256, .f32⟩ : BufTy).Contents (Elt F) → (⟨S100000x256, .f32⟩ : BufTy).Contents (Elt F)),
    binary main_arg0 main_arg4 main_v26 ((fun l r => Host.dotGeneral dot_S100000x602_S602x256_S100000x256_1_0_0_1_n_n none l r) : (⟨S100000x602, .f32⟩ : BufTy).Contents (Elt F) → (⟨S602x256, .f32⟩ : BufTy).Contents (Elt F) → (⟨S100000x256, .f32⟩ : BufTy).Contents (Elt F)),
    binary main_v25 main_v26 main_v27 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v27) (TRef.of (T := ⟨S100000x256, .f32⟩) main_call0_v0) (TRef.of (T := ⟨S100000x256, .f32⟩) main_v28) maximumf ]

/-- The third stretch: the same gather, sum, count and quotient over the hidden layer: the second neighbour mean. -/
abbrev s3 : List (HloOp τ sig (Elt F)) :=
  [ nullary main_c_4 (constantI S_ 32 0#32),
    unary main_c_4 main_v29 (broadcastInDim S400000 ![] bcast_S_S400000 : (⟨S_, .i32⟩ : BufTy).Contents (Elt F) → (⟨S400000, .i32⟩ : BufTy).Contents (Elt F)),
    binary main_v1 main_v29 main_v30 (cmpi .slt : (⟨S400000, .i32⟩ : BufTy).Contents (Elt F) → (⟨S400000, .i32⟩ : BufTy).Contents (Elt F) → (⟨S400000, .i1⟩ : BufTy).Contents (Elt F)),
    nullary main_c_5 (constantI S_ 32 100000#32),
    unary main_c_5 main_v31 (broadcastInDim S400000 ![] bcast_S_S400000 : (⟨S_, .i32⟩ : BufTy).Contents (Elt F) → (⟨S400000, .i32⟩ : BufTy).Contents (Elt F)),
    binary main_v1 main_v31 main_v32 (addi : (⟨S400000, .i32⟩ : BufTy).Contents (Elt F) → (⟨S400000, .i32⟩ : BufTy).Contents (Elt F) → (⟨S400000, .i32⟩ : BufTy).Contents (Elt F)),
    ternary main_v30 main_v32 main_v1 main_v33 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v33 main_v34 (broadcastInDim S400000x1 ![0] bcast_S400000_S400000x1_0 : (⟨S400000, .i32⟩ : BufTy).Contents (Elt F) → (⟨S400000x1, .i32⟩ : BufTy).Contents (Elt F)),
    binary main_v28 main_v34 main_v35 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)),
    nullary main_cst_6 (constant S_ .f32 0x00000000#32),
    unary main_cst_6 main_v36 (broadcastInDim S100000x256 ![] bcast_S_S100000x256 : (⟨S_, .f32⟩ : BufTy).Contents (Elt F) → (⟨S100000x256, .f32⟩ : BufTy).Contents (Elt F)),
    unary main_v3 main_v37 (broadcastInDim S400000x1 ![0] bcast_S400000_S400000x1_0 : (⟨S400000, .i32⟩ : BufTy).Contents (Elt F) → (⟨S400000x1, .i32⟩ : BufTy).Contents (Elt F)),
    ternary main_v36 main_v37 main_v35 main_v38 ((fun x i u => Host.scatterAdd scatter_S100000x256_S400000x1_S400000x256_1_0_0_1 x i u) : (⟨S100000x256, .f32⟩ : BufTy).Contents (Elt F) → (⟨S400000x1, .i32⟩ : BufTy).Contents (Elt F) → (⟨S400000x256, .f32⟩ : BufTy).Contents (Elt F) → (⟨S100000x256, .f32⟩ : BufTy).Contents (Elt F)),
    nullary main_cst_7 (constant S_ .f32 0x3F800000#32),
    unary main_cst_7 main_v39 (broadcastInDim S400000x1 ![] bcast_S_S400000x1 : (⟨S_, .f32⟩ : BufTy).Contents (Elt F) → (⟨S400000x1, .f32⟩ : BufTy).Contents (Elt F)),
    nullary main_cst_8 (constant S_ .f32 0x00000000#32),
    unary main_cst_8 main_v40 (broadcastInDim S100000x1 ![] bcast_S_S100000x1 : (⟨S_, .f32⟩ : BufTy).Contents (Elt F) → (⟨S100000x1, .f32⟩ : BufTy).Contents (Elt F)),
    unary main_v3 main_v41 (broadcastInDim S400000x1 ![0] bcast_S400000_S400000x1_0 : (⟨S400000, .i32⟩ : BufTy).Contents (Elt F) → (⟨S400000x1, .i32⟩ : BufTy).Contents (Elt F)),
    ternary main_v40 main_v41 main_v39 main_v42 ((fun x i u => Host.scatterAdd scatter_S100000x1_S400000x1_S400000x1_1_0_0_1 x i u) : (⟨S100000x1, .f32⟩ : BufTy).Contents (Elt F) → (⟨S400000x1, .i32⟩ : BufTy).Contents (Elt F) → (⟨S400000x1, .f32⟩ : BufTy).Contents (Elt F) → (⟨S100000x1, .f32⟩ : BufTy).Contents (Elt F)),
    nullary main_cst_9 (constant S_ .f32 0x3F800000#32),
    unary main_cst_9 main_v43 (broadcastInDim S100000x1 ![] bcast_S_S100000x1 : (⟨S_, .f32⟩ : BufTy).Contents (Elt F) → (⟨S100000x1, .f32⟩ : BufTy).Contents (Elt F)),
    binary main_v42 main_v43 main_v44 (maximumf : (⟨S100000x1, .f32⟩ : BufTy).Contents (Elt F) → (⟨S100000x1, .f32⟩ : BufTy).Contents (Elt F) → (⟨S100000x1, .f32⟩ : BufTy).Contents (Elt F)),
    unary main_v44 main_v45 (broadcastInDim S100000x256 ![0, 1] bcast_S100000x1_S100000x256_0_1 : (⟨S100000x1, .f32⟩ : BufTy).Contents (Elt F) → (⟨S100000x256, .f32⟩ : BufTy).Contents (Elt F)),
    binary main_v38 main_v45 main_v46 (Host.divf : (⟨S100000x256, .f32⟩ : BufTy).Contents (Elt F) → (⟨S100000x256, .f32⟩ : BufTy).Contents (Elt F) → (⟨S100000x256, .f32⟩ : BufTy).Contents (Elt F)) ]

/-- The fourth stretch: the output layer before its activation. -/
abbrev s4 : List (HloOp τ sig (Elt F)) :=
  [ binary main_v46 main_arg5 main_v47 ((fun l r => Host.dotGeneral dot_S100000x256_S256x42_S100000x42_1_0_0_1_n_n none l r) : (⟨S100000x256, .f32⟩ : BufTy).Contents (Elt F) → (⟨S256x42, .f32⟩ : BufTy).Contents (Elt F) → (⟨S100000x42, .f32⟩ : BufTy).Contents (Elt F)),
    unary main_arg6 main_v48 (broadcastInDim S1x42 ![1] bcast_S42_S1x42_1 : (⟨S42, .f32⟩ : BufTy).Contents (Elt F) → (⟨S1x42, .f32⟩ : BufTy).Contents (Elt F)),
    unary main_v48 main_v49 (broadcastInDim S100000x42 ![0, 1] bcast_S1x42_S100000x42_0_1 : (⟨S1x42, .f32⟩ : BufTy).Contents (Elt F) → (⟨S100000x42, .f32⟩ : BufTy).Contents (Elt F)),
    binary main_v47 main_v49 main_v50 (addf : (⟨S100000x42, .f32⟩ : BufTy).Contents (Elt F) → (⟨S100000x42, .f32⟩ : BufTy).Contents (Elt F) → (⟨S100000x42, .f32⟩ : BufTy).Contents (Elt F)),
    binary main_v28 main_arg7 main_v51 ((fun l r => Host.dotGeneral dot_S100000x256_S256x42_S100000x42_1_0_0_1_n_n none l r) : (⟨S100000x256, .f32⟩ : BufTy).Contents (Elt F) → (⟨S256x42, .f32⟩ : BufTy).Contents (Elt F) → (⟨S100000x42, .f32⟩ : BufTy).Contents (Elt F)),
    binary main_v50 main_v51 main_v52 (addf : (⟨S100000x42, .f32⟩ : BufTy).Contents (Elt F) → (⟨S100000x42, .f32⟩ : BufTy).Contents (Elt F) → (⟨S100000x42, .f32⟩ : BufTy).Contents (Elt F)) ]

/-- The fifth stretch: the log-softmax of each row: the row maximum subtracted, then the logarithm of the row's sum of exponentials. -/
abbrev s5 : List (HloOp τ sig (Elt F)) :=
  [ TRef.nullary (TRef.of (T := ⟨S_, .f32⟩) main_call1_cst) (constant S_ .f32 0xFF800000#32),
    TRef.binary (TRef.of (T := ⟨S100000x42, .f32⟩) main_v52) (TRef.of (T := ⟨S_, .f32⟩) main_call1_cst) (TRef.of (T := ⟨S100000, .f32⟩) main_call1_v0) (fun x v => Host.reduce FloatOps.maximumf x v reducesTo_S100000x42_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x42, .f32⟩) main_call1_v4) (broadcastInDim S100000x42 ![0, 1] bcast_S100000x1_S100000x42_0_1),
    TRef.binary (TRef.of (T := ⟨S100000x42, .f32⟩) main_v52) (TRef.of (T := ⟨S100000x42, .f32⟩) main_call1_v4) (TRef.of (T := ⟨S100000x42, .f32⟩) main_call1_v5) subf,
    TRef.unary (TRef.of (T := ⟨S100000x42, .f32⟩) main_call1_v5) (TRef.of (T := ⟨S100000x42, .f32⟩) main_call1_v6) Host.exp,
    TRef.nullary (TRef.of (T := ⟨S_, .f32⟩) main_call1_cst_1) (constant S_ .f32 0x00000000#32),
    TRef.binary (TRef.of (T := ⟨S100000x42, .f32⟩) main_call1_v6) (TRef.of (T := ⟨S_, .f32⟩) main_call1_cst_1) (TRef.of (T := ⟨S100000, .f32⟩) main_call1_v7) (fun x v => Host.reduceAdd x v reducesTo_S100000x42_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x42, .f32⟩) main_call1_v10) (broadcastInDim S100000x42 ![0, 1] bcast_S100000x1_S100000x42_0_1),
    TRef.binary (TRef.of (T := ⟨S100000x42, .f32⟩) main_call1_v5) (TRef.of (T := ⟨S100000x42, .f32⟩) main_call1_v10) (TRef.of (T := ⟨S100000x42, .f32⟩) main_v53) subf ]

/-! ## An inlined callee's operations as plain operations

A called function's operations are spelt over typed references, which carry each buffer's contents to the reference's own
type and back. At a literal reference both transports are the identity, whatever the operation's function is. -/

theorem plain_nullary (y : Ref sig .tc) (v : y.ty.Contents (Elt F))
    (hd : y.space ≠ .host := by decide) (hs : y.isScoped = false := by rfl) :
    (TRef.nullary (TRef.of (T := y.ty) y rfl hd hs) v : HloOp τ sig (Elt F))
      = nullary y v (TRef.of (T := y.ty) y rfl hd hs).dev := rfl

theorem plain_unary (x y : Ref sig .tc) (f : x.ty.Contents (Elt F) → y.ty.Contents (Elt F))
    (hdx : x.space ≠ .host := by decide) (hsx : x.isScoped = false := by rfl)
    (hdy : y.space ≠ .host := by decide) (hsy : y.isScoped = false := by rfl) :
    (TRef.unary (TRef.of (T := x.ty) x rfl hdx hsx) (TRef.of (T := y.ty) y rfl hdy hsy) f : HloOp τ sig (Elt F))
      = unary x y f (TRef.of (T := x.ty) x rfl hdx hsx).dev (TRef.of (T := y.ty) y rfl hdy hsy).dev := rfl

theorem plain_binary (a b y : Ref sig .tc) (f : a.ty.Contents (Elt F) → b.ty.Contents (Elt F) → y.ty.Contents (Elt F))
    (hda : a.space ≠ .host := by decide) (hsa : a.isScoped = false := by rfl)
    (hdb : b.space ≠ .host := by decide) (hsb : b.isScoped = false := by rfl)
    (hdy : y.space ≠ .host := by decide) (hsy : y.isScoped = false := by rfl) :
    (TRef.binary (TRef.of (T := a.ty) a rfl hda hsa) (TRef.of (T := b.ty) b rfl hdb hsb) (TRef.of (T := y.ty) y rfl hdy hsy) f : HloOp τ sig (Elt F))
      = binary a b y f (TRef.of (T := a.ty) a rfl hda hsa).dev (TRef.of (T := b.ty) b rfl hdb hsb).dev (TRef.of (T := y.ty) y rfl hdy hsy).dev := rfl

/-- The second stretch with the rectifier's three operations spelt as plain operations. -/
abbrev s2p : List (HloOp τ sig (Elt F)) :=
  [ binary main_v21 main_arg2 main_v22 ((fun l r => Host.dotGeneral dot_S100000x602_S602x256_S100000x256_1_0_0_1_n_n none l r) : (⟨S100000x602, .f32⟩ : BufTy).Contents (Elt F) → (⟨S602x256, .f32⟩ : BufTy).Contents (Elt F) → (⟨S100000x256, .f32⟩ : BufTy).Contents (Elt F)),
    unary main_arg3 main_v23 (broadcastInDim S1x256 ![1] bcast_S256_S1x256_1 : (⟨S256, .f32⟩ : BufTy).Contents (Elt F) → (⟨S1x256, .f32⟩ : BufTy).Contents (Elt F)),
    unary main_v23 main_v24 (broadcastInDim S100000x256 ![0, 1] bcast_S1x256_S100000x256_0_1 : (⟨S1x256, .f32⟩ : BufTy).Contents (Elt F) → (⟨S100000x256, .f32⟩ : BufTy).Contents (Elt F)),
    binary main_v22 main_v24 main_v25 (addf : (⟨S100000x256, .f32⟩ : BufTy).Contents (Elt F) → (⟨S100000x256, .f32⟩ : BufTy).Contents (Elt F) → (⟨S100000x256, .f32⟩ : BufTy).Contents (Elt F)),
    binary main_arg0 main_arg4 main_v26 ((fun l r => Host.dotGeneral dot_S100000x602_S602x256_S100000x256_1_0_0_1_n_n none l r) : (⟨S100000x602, .f32⟩ : BufTy).Contents (Elt F) → (⟨S602x256, .f32⟩ : BufTy).Contents (Elt F) → (⟨S100000x256, .f32⟩ : BufTy).Contents (Elt F)),
    binary main_v25 main_v26 main_v27 (addf : (⟨S100000x256, .f32⟩ : BufTy).Contents (Elt F) → (⟨S100000x256, .f32⟩ : BufTy).Contents (Elt F) → (⟨S100000x256, .f32⟩ : BufTy).Contents (Elt F)),
    nullary main_call0_cst (constant S_ .f32 0x00000000#32),
    unary main_call0_cst main_call0_v0 ((broadcastInDim S100000x256 ![] bcast_S_S100000x256) : (⟨S_, .f32⟩ : BufTy).Contents (Elt F) → (⟨S100000x256, .f32⟩ : BufTy).Contents (Elt F)),
    binary main_v27 main_call0_v0 main_v28 (maximumf : (⟨S100000x256, .f32⟩ : BufTy).Contents (Elt F) → (⟨S100000x256, .f32⟩ : BufTy).Contents (Elt F) → (⟨S100000x256, .f32⟩ : BufTy).Contents (Elt F)) ]

/-- The fifth stretch, the log-softmax's fifteen operations, spelt as plain operations. -/
abbrev s5p : List (HloOp τ sig (Elt F)) :=
  [ nullary main_call1_cst (constant S_ .f32 0xFF800000#32),
    binary main_v52 main_call1_cst main_call1_v0 ((fun x v => Host.reduce FloatOps.maximumf x v reducesTo_S100000x42_S100000_d1 h_S_) : (⟨S100000x42, .f32⟩ : BufTy).Contents (Elt F) → (⟨S_, .f32⟩ : BufTy).Contents (Elt F) → (⟨S100000, .f32⟩ : BufTy).Contents (Elt F)),
    nullary main_call1_cst_0 (constant S_ .f32 0xFF800000#32),
    unary main_call1_cst_0 main_call1_v1 ((broadcastInDim S100000 ![] bcast_S_S100000) : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 ((broadcastInDim S100000x1 ![0] bcast_S100000_S100000x1_0) : (⟨S100000, .f32⟩ : BufTy).Contents (Elt F) → (⟨S100000x1, .f32⟩ : BufTy).Contents (Elt F)),
    unary main_call1_v3 main_call1_v4 ((broadcastInDim S100000x42 ![0, 1] bcast_S100000x1_S100000x42_0_1) : (⟨S100000x1, .f32⟩ : BufTy).Contents (Elt F) → (⟨S100000x42, .f32⟩ : BufTy).Contents (Elt F)),
    binary main_v52 main_call1_v4 main_call1_v5 (subf : (⟨S100000x42, .f32⟩ : BufTy).Contents (Elt F) → (⟨S100000x42, .f32⟩ : BufTy).Contents (Elt F) → (⟨S100000x42, .f32⟩ : BufTy).Contents (Elt F)),
    unary main_call1_v5 main_call1_v6 (Host.exp : (⟨S100000x42, .f32⟩ : BufTy).Contents (Elt F) → (⟨S100000x42, .f32⟩ : BufTy).Contents (Elt F)),
    nullary main_call1_cst_1 (constant S_ .f32 0x00000000#32),
    binary main_call1_v6 main_call1_cst_1 main_call1_v7 ((fun x v => Host.reduceAdd x v reducesTo_S100000x42_S100000_d1 h_S_) : (⟨S100000x42, .f32⟩ : BufTy).Contents (Elt F) → (⟨S_, .f32⟩ : BufTy).Contents (Elt F) → (⟨S100000, .f32⟩ : BufTy).Contents (Elt F)),
    unary main_call1_v7 main_call1_v8 ((broadcastInDim S100000x1 ![0] bcast_S100000_S100000x1_0) : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 ((broadcastInDim S100000x42 ![0, 1] bcast_S100000x1_S100000x42_0_1) : (⟨S100000x1, .f32⟩ : BufTy).Contents (Elt F) → (⟨S100000x42, .f32⟩ : BufTy).Contents (Elt F)),
    binary main_call1_v5 main_call1_v10 main_v53 (subf : (⟨S100000x42, .f32⟩ : BufTy).Contents (Elt F) → (⟨S100000x42, .f32⟩ : BufTy).Contents (Elt F) → (⟨S100000x42, .f32⟩ : BufTy).Contents (Elt F)) ]

theorem s2_plain : (s2 : List (HloOp τ sig (Elt F))) = s2p :=
  congrArg₂ List.cons (rfl) <|
  congrArg₂ List.cons (rfl) <|
  congrArg₂ List.cons (rfl) <|
  congrArg₂ List.cons (rfl) <|
  congrArg₂ List.cons (rfl) <|
  congrArg₂ List.cons (rfl) <|
  congrArg₂ List.cons (plain_nullary main_call0_cst ((constant S_ .f32 0x00000000#32))) <|
  congrArg₂ List.cons (plain_unary main_call0_cst main_call0_v0 (((broadcastInDim S100000x256 ![] bcast_S_S100000x256)) : (⟨S_, .f32⟩ : BufTy).Contents (Elt F) → (⟨S100000x256, .f32⟩ : BufTy).Contents (Elt F))) <|
  congrArg₂ List.cons (plain_binary main_v27 main_call0_v0 main_v28 ((maximumf) : (⟨S100000x256, .f32⟩ : BufTy).Contents (Elt F) → (⟨S100000x256, .f32⟩ : BufTy).Contents (Elt F) → (⟨S100000x256, .f32⟩ : BufTy).Contents (Elt F))) <|
  rfl

theorem s5_plain : (s5 : List (HloOp τ sig (Elt F))) = s5p :=
  congrArg₂ List.cons (plain_nullary main_call1_cst ((constant S_ .f32 0xFF800000#32))) <|
  congrArg₂ List.cons (plain_binary main_v52 main_call1_cst main_call1_v0 (((fun x v => Host.reduce FloatOps.maximumf x v reducesTo_S100000x42_S100000_d1 h_S_)) : (⟨S100000x42, .f32⟩ : BufTy).Contents (Elt F) → (⟨S_, .f32⟩ : BufTy).Contents (Elt F) → (⟨S100000, .f32⟩ : BufTy).Contents (Elt F))) <|
  congrArg₂ List.cons (plain_nullary main_call1_cst_0 ((constant S_ .f32 0xFF800000#32))) <|
  congrArg₂ List.cons (plain_unary main_call1_cst_0 main_call1_v1 (((broadcastInDim S100000 ![] bcast_S_S100000)) : (⟨S_, .f32⟩ : BufTy).Contents (Elt F) → (⟨S100000, .f32⟩ : BufTy).Contents (Elt F))) <|
  congrArg₂ List.cons (plain_binary main_call1_v1 main_call1_v0 main_call1_v2 ((maximumf) : (⟨S100000, .f32⟩ : BufTy).Contents (Elt F) → (⟨S100000, .f32⟩ : BufTy).Contents (Elt F) → (⟨S100000, .f32⟩ : BufTy).Contents (Elt F))) <|
  congrArg₂ List.cons (plain_unary main_call1_v2 main_call1_v3 (((broadcastInDim S100000x1 ![0] bcast_S100000_S100000x1_0)) : (⟨S100000, .f32⟩ : BufTy).Contents (Elt F) → (⟨S100000x1, .f32⟩ : BufTy).Contents (Elt F))) <|
  congrArg₂ List.cons (plain_unary main_call1_v3 main_call1_v4 (((broadcastInDim S100000x42 ![0, 1] bcast_S100000x1_S100000x42_0_1)) : (⟨S100000x1, .f32⟩ : BufTy).Contents (Elt F) → (⟨S100000x42, .f32⟩ : BufTy).Contents (Elt F))) <|
  congrArg₂ List.cons (plain_binary main_v52 main_call1_v4 main_call1_v5 ((subf) : (⟨S100000x42, .f32⟩ : BufTy).Contents (Elt F) → (⟨S100000x42, .f32⟩ : BufTy).Contents (Elt F) → (⟨S100000x42, .f32⟩ : BufTy).Contents (Elt F))) <|
  congrArg₂ List.cons (plain_unary main_call1_v5 main_call1_v6 ((Host.exp) : (⟨S100000x42, .f32⟩ : BufTy).Contents (Elt F) → (⟨S100000x42, .f32⟩ : BufTy).Contents (Elt F))) <|
  congrArg₂ List.cons (plain_nullary main_call1_cst_1 ((constant S_ .f32 0x00000000#32))) <|
  congrArg₂ List.cons (plain_binary main_call1_v6 main_call1_cst_1 main_call1_v7 (((fun x v => Host.reduceAdd x v reducesTo_S100000x42_S100000_d1 h_S_)) : (⟨S100000x42, .f32⟩ : BufTy).Contents (Elt F) → (⟨S_, .f32⟩ : BufTy).Contents (Elt F) → (⟨S100000, .f32⟩ : BufTy).Contents (Elt F))) <|
  congrArg₂ List.cons (plain_unary main_call1_v7 main_call1_v8 (((broadcastInDim S100000x1 ![0] bcast_S100000_S100000x1_0)) : (⟨S100000, .f32⟩ : BufTy).Contents (Elt F) → (⟨S100000x1, .f32⟩ : BufTy).Contents (Elt F))) <|
  congrArg₂ List.cons (plain_unary main_call1_v8 main_call1_v9 ((Host.log) : (⟨S100000x1, .f32⟩ : BufTy).Contents (Elt F) → (⟨S100000x1, .f32⟩ : BufTy).Contents (Elt F))) <|
  congrArg₂ List.cons (plain_unary main_call1_v9 main_call1_v10 (((broadcastInDim S100000x42 ![0, 1] bcast_S100000x1_S100000x42_0_1)) : (⟨S100000x1, .f32⟩ : BufTy).Contents (Elt F) → (⟨S100000x42, .f32⟩ : BufTy).Contents (Elt F))) <|
  congrArg₂ List.cons (plain_binary main_call1_v5 main_call1_v10 main_v53 ((subf) : (⟨S100000x42, .f32⟩ : BufTy).Contents (Elt F) → (⟨S100000x42, .f32⟩ : BufTy).Contents (Elt F) → (⟨S100000x42, .f32⟩ : BufTy).Contents (Elt F))) <|
  rfl

/-! ## What each stretch writes, and what it leaves alone -/

/-- After the first stretch the first neighbour mean is its stage of the features and the edge list. -/
theorem s1_v21 (W : Valuation τ sig (Elt F)) :
    after s1 W (Proc.devRef .tc main_v21) = val_main_v21 (F := F) (W (Proc.devRef .tc main_arg0)) (W (Proc.devRef .tc main_arg1)) := by
  after_results_simp <;> rfl
/-- The sources. -/
theorem s1_v1 (W : Valuation τ sig (Elt F)) :
    after s1 W (Proc.devRef .tc main_v1) = val_main_v1 (F := F) (W (Proc.devRef .tc main_arg1)) := by
  after_results_simp <;> rfl
/-- The destinations. -/
theorem s1_v3 (W : Valuation τ sig (Elt F)) :
    after s1 W (Proc.devRef .tc main_v3) = val_main_v3 (F := F) (W (Proc.devRef .tc main_arg1)) := by
  after_results_simp <;> rfl
/-- The first stretch writes none of the arguments the later stretches read. -/
theorem s1_keep_arg0 (W : Valuation τ sig (Elt F)) : after s1 W (Proc.devRef .tc main_arg0) = W (Proc.devRef .tc main_arg0) := by after_results_simp
theorem s1_keep_arg2 (W : Valuation τ sig (Elt F)) : after s1 W (Proc.devRef .tc main_arg2) = W (Proc.devRef .tc main_arg2) := by after_results_simp
theorem s1_keep_arg3 (W : Valuation τ sig (Elt F)) : after s1 W (Proc.devRef .tc main_arg3) = W (Proc.devRef .tc main_arg3) := by after_results_simp
theorem s1_keep_arg4 (W : Valuation τ sig (Elt F)) : after s1 W (Proc.devRef .tc main_arg4) = W (Proc.devRef .tc main_arg4) := by after_results_simp
theorem s1_keep_arg5 (W : Valuation τ sig (Elt F)) : after s1 W (Proc.devRef .tc main_arg5) = W (Proc.devRef .tc main_arg5) := by after_results_simp
theorem s1_keep_arg6 (W : Valuation τ sig (Elt F)) : after s1 W (Proc.devRef .tc main_arg6) = W (Proc.devRef .tc main_arg6) := by after_results_simp
theorem s1_keep_arg7 (W : Valuation τ sig (Elt F)) : after s1 W (Proc.devRef .tc main_arg7) = W (Proc.devRef .tc main_arg7) := by after_results_simp

/-- After the second stretch the hidden layer is its stage, given the mean and the arguments it reads. -/
theorem s2_v28 (W : Valuation τ sig (Elt F)) (x0 : (⟨S100000x602, .f32⟩ : BufTy).Contents (Elt F)) (x1 : (⟨S2x400000, .i32⟩ : BufTy).Contents (Elt F)) (x2 : (⟨S602x256, .f32⟩ : BufTy).Contents (Elt F)) (x3 : (⟨S256, .f32⟩ : BufTy).Contents (Elt F)) (x4 : (⟨S602x256, .f32⟩ : BufTy).Contents (Elt F))
    (h21 : W (Proc.devRef .tc main_v21) = val_main_v21 (F := F) x0 x1) (h0 : W (Proc.devRef .tc main_arg0) = x0) (h2 : W (Proc.devRef .tc main_arg2) = x2)
    (h3 : W (Proc.devRef .tc main_arg3) = x3) (h4 : W (Proc.devRef .tc main_arg4) = x4) :
    after s2p W (Proc.devRef .tc main_v28) = val_main_v28 (F := F) x0 x1 x2 x3 x4 := by
  after_results_simp
  rw [h21, h0, h2, h3, h4]
  rfl
/-- The second stretch writes neither the sources, nor the destinations, nor the output layer's arguments. -/
theorem s2_keep_v1 (W : Valuation τ sig (Elt F)) : after s2p W (Proc.devRef .tc main_v1) = W (Proc.devRef .tc main_v1) := by after_results_simp
theorem s2_keep_v3 (W : Valuation τ sig (Elt F)) : after s2p W (Proc.devRef .tc main_v3) = W (Proc.devRef .tc main_v3) := by after_results_simp
theorem s2_keep_arg5 (W : Valuation τ sig (Elt F)) : after s2p W (Proc.devRef .tc main_arg5) = W (Proc.devRef .tc main_arg5) := by after_results_simp
theorem s2_keep_arg6 (W : Valuation τ sig (Elt F)) : after s2p W (Proc.devRef .tc main_arg6) = W (Proc.devRef .tc main_arg6) := by after_results_simp
theorem s2_keep_arg7 (W : Valuation τ sig (Elt F)) : after s2p W (Proc.devRef .tc main_arg7) = W (Proc.devRef .tc main_arg7) := by after_results_simp

/-- After the third stretch the second neighbour mean is its stage, given the sources, the destinations and the hidden layer. -/
theorem s3_v46 (W : Valuation τ sig (Elt F)) (x0 : (⟨S100000x602, .f32⟩ : BufTy).Contents (Elt F)) (x1 : (⟨S2x400000, .i32⟩ : BufTy).Contents (Elt F)) (x2 : (⟨S602x256, .f32⟩ : BufTy).Contents (Elt F)) (x3 : (⟨S256, .f32⟩ : BufTy).Contents (Elt F)) (x4 : (⟨S602x256, .f32⟩ : BufTy).Contents (Elt F))
    (h1 : W (Proc.devRef .tc main_v1) = val_main_v1 (F := F) x1) (h3 : W (Proc.devRef .tc main_v3) = val_main_v3 (F := F) x1)
    (h28 : W (Proc.devRef .tc main_v28) = val_main_v28 (F := F) x0 x1 x2 x3 x4) :
    after s3 W (Proc.devRef .tc main_v46) = val_main_v46 (F := F) x0 x1 x2 x3 x4 := by
  after_results_simp
  rw [h1, h3, h28]
  rfl
/-- The third stretch writes neither the hidden layer nor the output layer's arguments. -/
theorem s3_keep_v28 (W : Valuation τ sig (Elt F)) : after s3 W (Proc.devRef .tc main_v28) = W (Proc.devRef .tc main_v28) := by after_results_simp
theorem s3_keep_arg5 (W : Valuation τ sig (Elt F)) : after s3 W (Proc.devRef .tc main_arg5) = W (Proc.devRef .tc main_arg5) := by after_results_simp
theorem s3_keep_arg6 (W : Valuation τ sig (Elt F)) : after s3 W (Proc.devRef .tc main_arg6) = W (Proc.devRef .tc main_arg6) := by after_results_simp
theorem s3_keep_arg7 (W : Valuation τ sig (Elt F)) : after s3 W (Proc.devRef .tc main_arg7) = W (Proc.devRef .tc main_arg7) := by after_results_simp

/-- After the fourth stretch the output layer before its activation is its stage. -/
theorem s4_v52 (W : Valuation τ sig (Elt F)) (x0 : (⟨S100000x602, .f32⟩ : BufTy).Contents (Elt F)) (x1 : (⟨S2x400000, .i32⟩ : BufTy).Contents (Elt F)) (x2 : (⟨S602x256, .f32⟩ : BufTy).Contents (Elt F)) (x3 : (⟨S256, .f32⟩ : BufTy).Contents (Elt F)) (x4 : (⟨S602x256, .f32⟩ : BufTy).Contents (Elt F)) (x5 : (⟨S256x42, .f32⟩ : BufTy).Contents (Elt F)) (x6 : (⟨S42, .f32⟩ : BufTy).Contents (Elt F)) (x7 : (⟨S256x42, .f32⟩ : BufTy).Contents (Elt F))
    (h46 : W (Proc.devRef .tc main_v46) = val_main_v46 (F := F) x0 x1 x2 x3 x4) (h28 : W (Proc.devRef .tc main_v28) = val_main_v28 (F := F) x0 x1 x2 x3 x4)
    (h5 : W (Proc.devRef .tc main_arg5) = x5) (h6 : W (Proc.devRef .tc main_arg6) = x6) (h7 : W (Proc.devRef .tc main_arg7) = x7) :
    after s4 W (Proc.devRef .tc main_v52) = val_main_v52 (F := F) x0 x1 x2 x3 x4 x5 x6 x7 := by
  after_results_simp
  rw [h46, h28, h5, h6, h7]
  rfl
/-- After the fifth stretch the result is its stage: the log-softmax of the rows before activation. -/
theorem s5_v53 (W : Valuation τ sig (Elt F)) (x0 : (⟨S100000x602, .f32⟩ : BufTy).Contents (Elt F)) (x1 : (⟨S2x400000, .i32⟩ : BufTy).Contents (Elt F)) (x2 : (⟨S602x256, .f32⟩ : BufTy).Contents (Elt F)) (x3 : (⟨S256, .f32⟩ : BufTy).Contents (Elt F)) (x4 : (⟨S602x256, .f32⟩ : BufTy).Contents (Elt F)) (x5 : (⟨S256x42, .f32⟩ : BufTy).Contents (Elt F)) (x6 : (⟨S42, .f32⟩ : BufTy).Contents (Elt F)) (x7 : (⟨S256x42, .f32⟩ : BufTy).Contents (Elt F))
    (h52 : W (Proc.devRef .tc main_v52) = val_main_v52 (F := F) x0 x1 x2 x3 x4 x5 x6 x7) :
    after s5p W (Proc.devRef .tc main_v53) = val_main_v53 (F := F) x0 x1 x2 x3 x4 x5 x6 x7 := by
  after_results_simp
  rw [h52]
  rfl

/-! ## The five chained -/

set_option maxRecDepth 8192 in
/-- The whole list is the five stretches in a row. -/
theorem ops_eq : (ops : List (HloOp τ sig (Elt F))) = s1 ++ (s2p ++ (s3 ++ (s4 ++ s5p))) := by
  have h : (ops : List (HloOp τ sig (Elt F))) = s1 ++ (s2 ++ (s3 ++ (s4 ++ s5))) := rfl
  rw [h, s2_plain, s5_plain]

/-- From any contents, after the 82 operations the result buffer holds the last stage of the eight arguments' contents. -/
theorem stage (V : Valuation τ sig (Elt F)) :
    after ops V (Proc.devRef .tc main_v53) = val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_eq, StableHlo.after_append, StableHlo.after_append, StableHlo.after_append, StableHlo.after_append]
  have a28 := s2_v28 (after s1 V) _ _ _ _ _ (s1_v21 V) (s1_keep_arg0 V) (s1_keep_arg2 V) (s1_keep_arg3 V) (s1_keep_arg4 V)
  have b1 := (s2_keep_v1 (after s1 V)).trans (s1_v1 V)
  have b3 := (s2_keep_v3 (after s1 V)).trans (s1_v3 V)
  have b5 := (s2_keep_arg5 (after s1 V)).trans (s1_keep_arg5 V)
  have b6 := (s2_keep_arg6 (after s1 V)).trans (s1_keep_arg6 V)
  have b7 := (s2_keep_arg7 (after s1 V)).trans (s1_keep_arg7 V)
  have a46 := s3_v46 (after s2p (after s1 V)) _ _ _ _ _ b1 b3 a28
  have c28 := (s3_keep_v28 (after s2p (after s1 V))).trans a28
  have c5 := (s3_keep_arg5 (after s2p (after s1 V))).trans b5
  have c6 := (s3_keep_arg6 (after s2p (after s1 V))).trans b6
  have c7 := (s3_keep_arg7 (after s2p (after s1 V))).trans b7
  have a52 := s4_v52 (after s3 (after s2p (after s1 V))) _ _ _ _ _ _ _ _ a46 c28 c5 c6 c7
  exact s5_v53 (after s4 (after s3 (after s2p (after s1 V)))) _ _ _ _ _ _ _ _ a52

/-! ## The run -/

set_option maxRecDepth 8192 in
set_option maxHeartbeats 32800000 in
/-- On every device, for any float values, from any memory with zero counters: every weakly fair execution of @main terminates
    with the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v53).trans (stage (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RunH

end
-- ==== Proof.Mean.lean ====
/-
  The neighbour mean, the one piece of host arithmetic both programs share: for an edge list `e` (row 0 the source node
  of each edge, row 1 its destination) and a feature array `x`, every node receives the sum of its in-neighbours'
  feature rows, divided by its in-degree, a node with no in-neighbour counting as degree one:
      mean x e [n, f] = (Σ_{edges s→n} x[s, f]) / max (#{edges →n}) 1.
  A negative source index is first wrapped by the node count, as array indexing does. The gather, the two scatters
  and the division are never opened by this certificate: both programs apply the same chain to the same operands,
  and it is carried as one function.
-/
import proofs.«105512_j51118700757722_1_alg».proof.Proof.Gen.KernelIdeal

noncomputable section

namespace Cert.KernelIdeal.Mean

open Cert.KernelIdeal Cert.KernelIdeal.Facts₀ Cert.KernelIdeal.Facts Idealize.ShloMosaic Idealize.ShloMosaic.TcCoe

variable {F : FTy → Type} [FloatOps F]

/-- Row `r` of the edge list as a vector of 400000 node indices. -/
def srcRow (e : (⟨S2x400000, .i32⟩ : BufTy).Contents (Elt F)) : (⟨S400000, .i32⟩ : BufTy).Contents (Elt F) :=
  shapeCast S400000 (extractStridedSlice S1x400000 ![0, 0] e slices_S2x400000_S1x400000_0_0) shapeCasts_S1x400000_S400000
def dstRow (e : (⟨S2x400000, .i32⟩ : BufTy).Contents (Elt F)) : (⟨S400000, .i32⟩ : BufTy).Contents (Elt F) :=
  shapeCast S400000 (extractStridedSlice S1x400000 ![1, 0] e slices_S2x400000_S1x400000_1_0) shapeCasts_S1x400000_S400000

/-- The source indices as the gather takes them: a negative index wrapped by the node count, one index per row. -/
def srcCol (s : (⟨S400000, .i32⟩ : BufTy).Contents (Elt F)) : (⟨S400000x1, .i32⟩ : BufTy).Contents (Elt F) :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 100000#32))) s)
/-- The destination indices as the scatters take them, one index per row. -/
def dstCol (d : (⟨S400000, .i32⟩ : BufTy).Contents (Elt F)) : (⟨S400000x1, .i32⟩ : BufTy).Contents (Elt F) :=
  broadcastInDim S400000x1 ![0] bcast_S400000_S400000x1_0 d

/-- Every node's in-degree, at least one: ones scattered onto the destinations, then the maximum with one. -/
def degree (d : (⟨S400000, .i32⟩ : BufTy).Contents (Elt F)) : (⟨S100000x1, .f32⟩ : BufTy).Contents (Elt F) :=
  maximumf
    (Host.scatterAdd scatter_S100000x1_S400000x1_S400000x1_1_0_0_1
      (broadcastInDim S100000x1 ![] bcast_S_S100000x1 (constant S_ .f32 0x00000000#32)) (dstCol d)
      (broadcastInDim S400000x1 ![] bcast_S_S400000x1 (constant S_ .f32 0x3F800000#32)))
    (broadcastInDim S100000x1 ![] bcast_S_S100000x1 (constant S_ .f32 0x3F800000#32))

/-- The neighbour mean of 602-feature rows. -/
def mean602 (x : (⟨S100000x602, .f32⟩ : BufTy).Contents (Elt F)) (s d : (⟨S400000, .i32⟩ : BufTy).Contents (Elt F)) :
    (⟨S100000x602, .f32⟩ : BufTy).Contents (Elt F) :=
  Host.divf
    (Host.scatterAdd scatter_S100000x602_S400000x1_S400000x602_1_0_0_1
      (broadcastInDim S100000x602 ![] bcast_S_S100000x602 (constant S_ .f32 0x00000000#32)) (dstCol d)
      (Host.gather gather_S100000x602_S400000x1_S400000x602_1_0_n_n_0_1_1602 x (srcCol s)))
    (broadcastInDim S100000x602 ![0, 1] bcast_S100000x1_S100000x602_0_1 (degree d))

/-- The neighbour mean of 256-feature rows. -/
def mean256 (h : (⟨S100000x256, .f32⟩ : BufTy).Contents (Elt F)) (s d : (⟨S400000, .i32⟩ : BufTy).Contents (Elt F)) :
    (⟨S100000x256, .f32⟩ : BufTy).Contents (Elt F) :=
  Host.divf
    (Host.scatterAdd scatter_S100000x256_S400000x1_S400000x256_1_0_0_1
      (broadcastInDim S100000x256 ![] bcast_S_S100000x256 (constant S_ .f32 0x00000000#32)) (dstCol d)
      (Host.gather gather_S100000x256_S400000x1_S400000x256_1_0_n_n_0_1_1256 h (srcCol s)))
    (broadcastInDim S100000x256 ![0, 1] bcast_S100000x1_S100000x256_0_1 (degree d))

end Cert.KernelIdeal.Mean

end
-- ==== Proof.HostK.lean ====
/-
  The kernel program's two stretches of host operations, read as values: what each array a region reads holds when the
  region is entered, as a function of the launch memory. Before the first region: the neighbour mean of the input
  features, the features and the layer's weights (narrowed, which changes no extended real) and the bias as a row.
  Before the second region: the same of the hidden features the first region left.
-/
import proofs.«105512_j51118700757722_1_alg».proof.Proof.Gen.KernelIdeal.Frame
import proofs.«105512_j51118700757722_1_alg».proof.Proof.Mean
import Idealize.ShloMosaic.Lib.StableHlo.Run

set_option maxRecDepth 16384

noncomputable section

namespace Cert.KernelIdeal.HostK

open Cert.KernelIdeal Cert.KernelIdeal.Facts₀ Cert.KernelIdeal.Facts Cert.KernelIdeal.Gen Cert.KernelIdeal.Mean
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Entering the first region -/

theorem V1_src (c : Dev nD) : V1 m ρ c main_v1 = srcRow (m ((c : Thread nD τ).loc main_arg1)) := by
  show StableHlo.after hostOps0 (W0 m ρ c) (Proc.devRef .tc main_v1) = _
  after_results_simp <;> rfl

theorem V1_dst (c : Dev nD) : V1 m ρ c main_v3 = dstRow (m ((c : Thread nD τ).loc main_arg1)) := by
  show StableHlo.after hostOps0 (W0 m ρ c) (Proc.devRef .tc main_v3) = _
  after_results_simp <;> rfl

set_option maxHeartbeats 4000000 in
theorem V1_mean (c : Dev nD) : V1 m ρ c main_v22
    = truncf .bf16 (mean602 (m ((c : Thread nD τ).loc main_arg0)) (srcRow (m ((c : Thread nD τ).loc main_arg1))) (dstRow (m ((c : Thread nD τ).loc main_arg1)))) Facts₀.bitsLt_bf16_f32 := by
  show StableHlo.after hostOps0 (W0 m ρ c) (Proc.devRef .tc main_v22) = _
  after_results_simp <;> rfl

theorem V1_x (c : Dev nD) : V1 m ρ c main_v23 = truncf .bf16 (m ((c : Thread nD τ).loc main_arg0)) Facts₀.bitsLt_bf16_f32 := by
  show StableHlo.after hostOps0 (W0 m ρ c) (Proc.devRef .tc main_v23) = _
  after_results_simp <;> rfl

theorem V1_wl (c : Dev nD) : V1 m ρ c main_v24 = truncf .bf16 (m ((c : Thread nD τ).loc main_arg2)) Facts₀.bitsLt_bf16_f32 := by
  show StableHlo.after hostOps0 (W0 m ρ c) (Proc.devRef .tc main_v24) = _
  after_results_simp <;> rfl

theorem V1_wr (c : Dev nD) : V1 m ρ c main_v25 = truncf .bf16 (m ((c : Thread nD τ).loc main_arg4)) Facts₀.bitsLt_bf16_f32 := by
  show StableHlo.after hostOps0 (W0 m ρ c) (Proc.devRef .tc main_v25) = _
  after_results_simp <;> rfl

theorem V1_b (c : Dev nD) : V1 m ρ c main_v26 = shapeCast S1x256 (m ((c : Thread nD τ).loc main_arg3)) Facts₀.shapeCasts_S256_S1x256 := by
  show StableHlo.after hostOps0 (W0 m ρ c) (Proc.devRef .tc main_v26) = _
  after_results_simp <;> rfl

/-! ## Buffers the first region does not write keep what they held when it was entered -/

theorem V2_src (c : Dev nD) : V2 m ρ c main_v1 = srcRow (m ((c : Thread nD τ).loc main_arg1)) :=
  (W2_of_ne m ρ c main_v1 (by decide)).trans (V1_src m ρ c)

theorem V2_dst (c : Dev nD) : V2 m ρ c main_v3 = dstRow (m ((c : Thread nD τ).loc main_arg1)) :=
  (W2_of_ne m ρ c main_v3 (by decide)).trans (V1_dst m ρ c)

theorem V2_wl (c : Dev nD) : V2 m ρ c main_arg5 = m ((c : Thread nD τ).loc main_arg5) :=
  (W2_of_ne m ρ c main_arg5 (by decide)).trans (by
    show StableHlo.after hostOps0 (W0 m ρ c) (Proc.devRef .tc main_arg5) = _
    after_results_simp <;> rfl)

theorem V2_wr (c : Dev nD) : V2 m ρ c main_arg7 = m ((c : Thread nD τ).loc main_arg7) :=
  (W2_of_ne m ρ c main_arg7 (by decide)).trans (by
    show StableHlo.after hostOps0 (W0 m ρ c) (Proc.devRef .tc main_arg7) = _
    after_results_simp <;> rfl)

theorem V2_b (c : Dev nD) : V2 m ρ c main_arg6 = m ((c : Thread nD τ).loc main_arg6) :=
  (W2_of_ne m ρ c main_arg6 (by decide)).trans (by
    show StableHlo.after hostOps0 (W0 m ρ c) (Proc.devRef .tc main_arg6) = _
    after_results_simp <;> rfl)

/-- The hidden features: what the first region's write-backs leave in its output array. -/
theorem V2_h (c : Dev nD) : V2 m ρ c main_v27 = (dat0 (V1 m ρ) c).arrAt 5 cfg0.N := W2_arr m ρ c 5

/-! ## Entering the second region -/

theorem V3_h (c : Dev nD) : V3 m ρ c main_v27 = V2 m ρ c main_v27 := by
  show StableHlo.after hostOps1 (W2 m ρ c) (Proc.devRef .tc main_v27) = _
  after_results_simp <;> rfl

set_option maxHeartbeats 4000000 in
theorem V3_mean (c : Dev nD) : V3 m ρ c main_v47
    = truncf .bf16 (mean256 (extf .f32 (V2 m ρ c main_v27) Facts₀.bitsLt_bf16_f32) (V2 m ρ c main_v1) (V2 m ρ c main_v3)) Facts₀.bitsLt_bf16_f32 := by
  show StableHlo.after hostOps1 (W2 m ρ c) (Proc.devRef .tc main_v47) = _
  after_results_simp <;> rfl

theorem V3_wl (c : Dev nD) : V3 m ρ c main_v48 = truncf .bf16 (V2 m ρ c main_arg5) Facts₀.bitsLt_bf16_f32 := by
  show StableHlo.after hostOps1 (W2 m ρ c) (Proc.devRef .tc main_v48) = _
  after_results_simp <;> rfl

theorem V3_wr (c : Dev nD) : V3 m ρ c main_v49 = truncf .bf16 (V2 m ρ c main_arg7) Facts₀.bitsLt_bf16_f32 := by
  show StableHlo.after hostOps1 (W2 m ρ c) (Proc.devRef .tc main_v49) = _
  after_results_simp <;> rfl

theorem V3_b (c : Dev nD) : V3 m ρ c main_v50 = shapeCast S1x42 (V2 m ρ c main_arg6) Facts₀.shapeCasts_S42_S1x42 := by
  show StableHlo.after hostOps1 (W2 m ρ c) (Proc.devRef .tc main_v50) = _
  after_results_simp <;> rfl

/-- The result: what the second region's write-backs leave in its output array. -/
theorem W4_result (c : Dev nD) : W4 m ρ c (Proc.devRef .tc main_v51) = (dat1 (V3 m ρ) c).arrAt 5 cfg1.N := W4_arr m ρ c 5

end Cert.KernelIdeal.HostK

end
-- ==== Proof.Spec.lean ====
/-
  What the two-layer GraphSAGE network computes, as functions on the extended reals, index by index.

  One layer, before its activation, at node `r` and output feature `j`:
      pre r j = (Σ_k M[r,k]·Wl[k,j] + Σ_k X[r,k]·Wr[k,j]) + b[j]
  where `M` is the mean of the node's in-neighbours' feature rows and `X` the nodes' own rows. The hidden layer is
  `max (pre r j) 0`; the output layer is the log-softmax of the row `pre r ·`:
      out r j = (pre r j − μ_r) − log Σ_j' exp (pre r j' − μ_r),   μ_r = max_j' pre r j'.
  Both programs spell the real zero and the bottom element by the same two float words, which are therefore carried
  as they are and never evaluated.
-/
import Idealize.ShloMosaic.PureOps.Ideal
import Idealize.ShloMosaic.Lib.ValueIdx
import Mathlib.Data.Finset.Fold
import Mathlib.Algebra.BigOperators.Group.Finset.Basic

noncomputable section

namespace Cert.Sage

open Idealize.ShloMosaic Idealize.ShloMosaic.ValueIdx

/-- The real zero, as the word both programs write for it. -/
abbrev zeroW : EReal := Ideal.ofBits .f32 0x00000000#32
/-- The bottom of the extended reals, as the word both programs write for it (the pattern of −∞). -/
abbrev botW : EReal := Ideal.ofBits .f32 0xFF800000#32

/-- One layer before its activation at node `r`, feature `j`: the neighbour mean's row against `Wl`, plus the node's own
    row against `Wr`, plus the bias. -/
def pre {N K H : Nat} (M X : (⟨2, ![N, K]⟩ : Shape).Idx → EReal) (Wl Wr : (⟨2, ![K, H]⟩ : Shape).Idx → EReal)
    (b : Fin H → EReal) (r : Fin N) (j : Fin H) : EReal :=
  (∑ k : Fin K, M (ix2 r k) * Wl (ix2 k j) + ∑ k : Fin K, X (ix2 r k) * Wr (ix2 k j)) + b j

/-- Adding the bias before the second product instead of after it gives the same number: addition on the extended
    reals is commutative and associative (no finiteness is needed for that). -/
theorem pre_bias_first {N K H : Nat} (M X : (⟨2, ![N, K]⟩ : Shape).Idx → EReal) (Wl Wr : (⟨2, ![K, H]⟩ : Shape).Idx → EReal)
    (b : Fin H → EReal) (r : Fin N) (j : Fin H) :
    (∑ k : Fin K, M (ix2 r k) * Wl (ix2 k j) + b j) + ∑ k : Fin K, X (ix2 r k) * Wr (ix2 k j) = pre M X Wl Wr b r j :=
  add_right_comm _ _ _

/-- The hidden layer: 100000 nodes, 602 input features, 256 hidden features, rectified. -/
def hidden (M X : (⟨2, ![100000, 602]⟩ : Shape).Idx → EReal) (Wl Wr : (⟨2, ![602, 256]⟩ : Shape).Idx → EReal)
    (b : Fin 256 → EReal) : (⟨2, ![100000, 256]⟩ : Shape).Idx → EReal :=
  fun i => max (pre M X Wl Wr b ⟨(i 0).val, (i 0).isLt⟩ ⟨(i 1).val, (i 1).isLt⟩) zeroW

theorem hidden_ix2 (M X : (⟨2, ![100000, 602]⟩ : Shape).Idx → EReal) (Wl Wr : (⟨2, ![602, 256]⟩ : Shape).Idx → EReal)
    (b : Fin 256 → EReal) (r : Fin 100000) (j : Fin 256) :
    hidden M X Wl Wr b (ix2 r j) = max (pre M X Wl Wr b r j) zeroW := rfl

/-- A row's maximum, folded from the bottom element. -/
def rowMax {C : Nat} (a : Fin C → EReal) : EReal := (Finset.univ : Finset (Fin C)).fold max botW a

/-- Taking the maximum with the bottom element once more changes nothing: the fold already starts there. -/
theorem max_botW_rowMax {C : Nat} (a : Fin C → EReal) : max botW (rowMax a) = rowMax a :=
  max_eq_right (Finset.le_fold_max (b := botW) (f := a) (s := Finset.univ) botW |>.mpr (Or.inl le_rfl))

/-- The log-softmax of a row, shifted by the row's maximum as both programs compute it. -/
def logSoftmax {C : Nat} (a : Fin C → EReal) (j : Fin C) : EReal :=
  (a j - rowMax a) - Ideal.log (∑ j' : Fin C, Ideal.exp (a j' - rowMax a))

/-- The output layer: 100000 nodes, 256 hidden features, 42 classes, log-softmax over the classes. -/
def output (M H : (⟨2, ![100000, 256]⟩ : Shape).Idx → EReal) (Wl Wr : (⟨2, ![256, 42]⟩ : Shape).Idx → EReal)
    (b : Fin 42 → EReal) : (⟨2, ![100000, 42]⟩ : Shape).Idx → EReal :=
  fun i => logSoftmax (pre M H Wl Wr b ⟨(i 0).val, (i 0).isLt⟩) ⟨(i 1).val, (i 1).isLt⟩

theorem output_ix2 (M H : (⟨2, ![100000, 256]⟩ : Shape).Idx → EReal) (Wl Wr : (⟨2, ![256, 42]⟩ : Shape).Idx → EReal)
    (b : Fin 42 → EReal) (r : Fin 100000) (j : Fin 42) :
    output M H Wl Wr b (ix2 r j) = logSoftmax (pre M H Wl Wr b r) j := rfl

end Cert.Sage

end
-- ==== Proof.Region0.lean ====
/-
  Region 0 of the kernel program, read as a value: what its output array holds when the region ends, as one function
  of the arrays the region finds when it is entered.

  The body's stored value is read at a row and a column of its block (two block products into zero accumulators, their
  sum, the bias row broadcast over the rows, the maximum with zero); each input block is read where the output block's
  rows say; the fifty output blocks are then restrictions of one whole-array function and cover the array.
-/
import proofs.«105512_j51118700757722_1_alg».proof.Proof.Gen.KernelIdeal.Frame
import proofs.«105512_j51118700757722_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's stored value at an index -/

/-- The block product contracts the left operand's columns against the right operand's rows. On the left operand the first
    axis is the output's row. -/
theorem lhs_row (i : S2000x256.Idx) (q : dot_S2000x602_S602x256_S2000x256_1_0_0_1_n_n.contr.Idx) :
    (dot_S2000x602_S602x256_S2000x256_1_0_0_1_n_n.lhsIdx i q 0).val = (i 0).val := by
  unfold DotDims.lhsIdx
  rw [dif_neg (show ¬(0 : Fin S2000x602.rank) ∈ dot_S2000x602_S602x256_S2000x256_1_0_0_1_n_n.lhsBatch by decide), dif_pos (show (0 : Fin S2000x602.rank) ∈ dot_S2000x602_S602x256_S2000x256_1_0_0_1_n_n.lhsNonContracting by decide)]
  rfl
/-- On the left operand the second axis is the contracted one. -/
theorem lhs_contr (i : S2000x256.Idx) (q : dot_S2000x602_S602x256_S2000x256_1_0_0_1_n_n.contr.Idx) :
    (dot_S2000x602_S602x256_S2000x256_1_0_0_1_n_n.lhsIdx i q 1).val = (q ⟨0, by decide⟩).val :=
  dot_S2000x602_S602x256_S2000x256_1_0_0_1_n_n.lhsIdx_val_of_single rfl i q
/-- On the right operand the first axis is the contracted one. -/
theorem rhs_contr (i : S2000x256.Idx) (q : dot_S2000x602_S602x256_S2000x256_1_0_0_1_n_n.contr.Idx) :
    (dot_S2000x602_S602x256_S2000x256_1_0_0_1_n_n.rhsIdx i q 0).val = (q ⟨0, by decide⟩).val :=
  dot_S2000x602_S602x256_S2000x256_1_0_0_1_n_n.rhsIdx_val_of_single rfl i q
/-- On the right operand the second axis is the output's column. -/
theorem rhs_col (i : S2000x256.Idx) (q : dot_S2000x602_S602x256_S2000x256_1_0_0_1_n_n.contr.Idx) :
    (dot_S2000x602_S602x256_S2000x256_1_0_0_1_n_n.rhsIdx i q 1).val = (i 1).val := by
  unfold DotDims.rhsIdx
  rw [dif_neg (show ¬(1 : Fin S602x256.rank) ∈ dot_S2000x602_S602x256_S2000x256_1_0_0_1_n_n.rhsBatch by decide), dif_pos (show (1 : Fin S602x256.rank) ∈ dot_S2000x602_S602x256_S2000x256_1_0_0_1_n_n.rhsNonContracting by decide)]
  rfl

/-- A block product into the zero accumulator, at row `p` and column `q`: the row of the left block against the column of the right one. -/
theorem matmul_zero_apply (a : FVec Ideal S2000x602 .bf16) (b : FVec Ideal S602x256 .bf16) (p : Fin 2000) (q : Fin 256) :
    matmul dot_S2000x602_S602x256_S2000x256_1_0_0_1_n_n none a b (constant (F := Ideal) S2000x256 .f32 0x00000000#32) (ix2 p q)
      = ∑ k : Fin 602, a (ix2 p k) * b (ix2 k q) := by
  simp only [matmul]
  rw [Ideal.matmul_constant_zero_apply, ← Equiv.sum_comp (ValueIdx.contrEquiv1 dot_S2000x602_S602x256_S2000x256_1_0_0_1_n_n 602 rfl rfl).symm]
  refine Finset.sum_congr rfl fun k _ => ?_
  have hk := ValueIdx.contrEquiv1_symm_val dot_S2000x602_S602x256_S2000x256_1_0_0_1_n_n 602 rfl rfl k
  have el : dot_S2000x602_S602x256_S2000x256_1_0_0_1_n_n.lhsIdx (ix2 p q) ((ValueIdx.contrEquiv1 dot_S2000x602_S602x256_S2000x256_1_0_0_1_n_n 602 rfl rfl).symm k) = ix2 p k := funext fun ax => Fin.ext (by
    match ax with
    | ⟨0, _⟩ => exact lhs_row _ _
    | ⟨1, _⟩ => exact (lhs_contr _ _).trans hk)
  have er : dot_S2000x602_S602x256_S2000x256_1_0_0_1_n_n.rhsIdx (ix2 p q) ((ValueIdx.contrEquiv1 dot_S2000x602_S602x256_S2000x256_1_0_0_1_n_n 602 rfl rfl).symm k) = ix2 k q := funext fun ax => Fin.ext (by
    match ax with
    | ⟨0, _⟩ => exact (rhs_contr _ _).trans hk
    | ⟨1, _⟩ => exact rhs_col _ _)
  rw [el, er]

/-- The body's stored value at row `p`, column `q` of its block: the two products added, the bias row added, rectified. -/
theorem payload_apply (x0 x5 : FVec Ideal S2000x602 .bf16) (x2 x7 : FVec Ideal S602x256 .bf16) (x11 : FVec Ideal S1x256 .f32)
    (p : Fin 2000) (q : Fin 256) :
    k0_pay1 (F := Ideal) x0 x2 x5 x7 x11 (ix2 p q)
      = max ((∑ k : Fin 602, x0 (ix2 p k) * x2 (ix2 k q) + ∑ k : Fin 602, x5 (ix2 p k) * x7 (ix2 k q)) + x11 (ix2 0 q)) Cert.Sage.zeroW := by
  unfold k0_pay1
  rw [truncf_apply, maximumf_apply, addf_apply, addf_apply, matmul_zero_apply, matmul_zero_apply, broadcast_apply]
  simp only [shapeCast_self]
  rw [broadcastTo_1b_ab_apply]
  rfl

/-! ## What a grid point writes back -/

/-- Every access of the body starts at the origin of its block. -/
theorem zero_offsets : (![0, 0] : Fin 2 → Nat) = fun _ => 0 := funext fun a => by fin_cases a <;> rfl

/-- The windows' block indices at each of the fifty grid points: the two feature windows move with the output window along
    the rows and stay at column block 0; the weight and bias windows stay at block (0, 0); the output's row block is the
    point's number. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val ≤ 49 :=
  (by decide +kernel : ∀ t : Fin grid0.N, _)

/-- A feature block's entry (p, k) at point `t` is the array's entry at row `r` = 2000·(block row) + p, column k. -/
theorem feat0_read (V : (c : Dev nD) → (b : Ref sig .tc) → Buf (Elt Ideal) ((c : Thread nD τ).loc b)) (c : Dev nD) (t : Fin cfg0.N)
    (p : Fin 2000) (k : Fin 602) (r : Fin 100000) (hr : r.val = win0_5.index t (0 : Fin 2) * 2000 + p.val) :
    iblk0 V c 0 t (ix2 p k) = V c main_v22 (ix2 r k) := by
  obtain ⟨e0, e1, -⟩ := index_facts t
  show V c main_v22 (((cfg0.win 0).blk t).view.emb (ix2 p k)) = V c main_v22 (ix2 r k)
  refine congrArg (V c main_v22) (funext fun a => Fin.ext ?_)
  match a with
  | ⟨0, _⟩ => show win0_0.index t (0 : Fin 2) * 2000 + 1 * p.val = r.val; omega
  | ⟨1, _⟩ => show win0_0.index t (1 : Fin 2) * 602 + 1 * k.val = k.val; omega

/-- The same for the second feature array. -/
theorem feat1_read (V : (c : Dev nD) → (b : Ref sig .tc) → Buf (Elt Ideal) ((c : Thread nD τ).loc b)) (c : Dev nD) (t : Fin cfg0.N)
    (p : Fin 2000) (k : Fin 602) (r : Fin 100000) (hr : r.val = win0_5.index t (0 : Fin 2) * 2000 + p.val) :
    iblk0 V c 1 t (ix2 p k) = V c main_v23 (ix2 r k) := by
  obtain ⟨-, -, e0, e1, -⟩ := index_facts t
  show V c main_v23 (((cfg0.win 1).blk t).view.emb (ix2 p k)) = V c main_v23 (ix2 r k)
  refine congrArg (V c main_v23) (funext fun a => Fin.ext ?_)
  match a with
  | ⟨0, _⟩ => show win0_1.index t (0 : Fin 2) * 2000 + 1 * p.val = r.val; omega
  | ⟨1, _⟩ => show win0_1.index t (1 : Fin 2) * 602 + 1 * k.val = k.val; omega

/-- A weight block is the whole weight matrix at every point. -/
theorem weight0_read (V : (c : Dev nD) → (b : Ref sig .tc) → Buf (Elt Ideal) ((c : Thread nD τ).loc b)) (c : Dev nD) (t : Fin cfg0.N) (k : Fin 602) (q : Fin 256) :
    iblk0 V c 2 t (ix2 k q) = V c main_v24 (ix2 k q) := by
  obtain ⟨-, -, -, -, e0, e1, -⟩ := index_facts t
  show V c main_v24 (((cfg0.win 2).blk t).view.emb (ix2 k q)) = V c main_v24 (ix2 k q)
  refine congrArg (V c main_v24) (funext fun a => Fin.ext ?_)
  match a with
  | ⟨0, _⟩ => show win0_2.index t (0 : Fin 2) * 602 + 1 * k.val = k.val; omega
  | ⟨1, _⟩ => show win0_2.index t (1 : Fin 2) * 256 + 1 * q.val = q.val; omega

/-- The same for the second weight matrix. -/
theorem weight1_read (V : (c : Dev nD) → (b : Ref sig .tc) → Buf (Elt Ideal) ((c : Thread nD τ).loc b)) (c : Dev nD) (t : Fin cfg0.N) (k : Fin 602) (q : Fin 256) :
    iblk0 V c 3 t (ix2 k q) = V c main_v25 (ix2 k q) := by
  obtain ⟨-, -, -, -, -, -, e0, e1, -⟩ := index_facts t
  show V c main_v25 (((cfg0.win 3).blk t).view.emb (ix2 k q)) = V c main_v25 (ix2 k q)
  refine congrArg (V c main_v25) (funext fun a => Fin.ext ?_)
  match a with
  | ⟨0, _⟩ => show win0_3.index t (0 : Fin 2) * 602 + 1 * k.val = k.val; omega
  | ⟨1, _⟩ => show win0_3.index t (1 : Fin 2) * 256 + 1 * q.val = q.val; omega

/-- The bias block is the whole bias row at every point. -/
theorem bias_read (V : (c : Dev nD) → (b : Ref sig .tc) → Buf (Elt Ideal) ((c : Thread nD τ).loc b)) (c : Dev nD) (t : Fin cfg0.N) (q : Fin 256) :
    iblk0 V c 4 t (ix2 (0 : Fin 1) q) = V c main_v26 (ix2 (0 : Fin 1) q) := by
  obtain ⟨-, -, -, -, -, -, -, -, e0, e1, -⟩ := index_facts t
  show V c main_v26 (((cfg0.win 4).blk t).view.emb (ix2 (0 : Fin 1) q)) = V c main_v26 (ix2 (0 : Fin 1) q)
  refine congrArg (V c main_v26) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 256 + 1 * q.val = q.val; omega

/-- What point `t` writes back is block `t` of the hidden layer of the arrays the region found. -/
theorem flushed_eq (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (Cert.Sage.hidden (V c main_v22) (V c main_v23) (V c main_v24) (V c main_v25) (fun j => V c main_v26 (ix2 0 j))) := by
  show (cfg0.win 5).cut (grid0.coords t) ((dat0 V c).after 5 t) = _
  rw [after0_5]
  unfold out0_5
  rw [View.canon_unit_zero zero_offsets]
  simp only [View.ld_unit_zero (S := S2000x602) zero_offsets, View.ld_unit_zero (S := S602x256) zero_offsets, View.ld_unit_zero (S := S1x256) zero_offsets]
  funext y
  obtain ⟨p, q, rfl⟩ : ∃ (p : Fin 2000) (q : Fin 256), y = ix2 p q := ⟨y 0, y 1, eq_ix2 y⟩
  obtain ⟨-, -, -, -, -, -, -, -, -, -, e0, e1, e2⟩ := index_facts t
  have hp : p.val < 2000 := p.isLt
  let r : Fin 100000 := ⟨win0_5.index t (0 : Fin 2) * 2000 + p.val, by omega⟩
  have hr : r.val = win0_5.index t (0 : Fin 2) * 2000 + p.val := rfl
  have hemb : ((cfg0.win 5).blk t).view.emb (ix2 p q) = ix2 r q := funext fun a => Fin.ext (by
    match a with
    | ⟨0, _⟩ => show win0_5.index t (0 : Fin 2) * 2000 + 1 * p.val = r.val; omega
    | ⟨1, _⟩ => show win0_5.index t (1 : Fin 2) * 256 + 1 * q.val = q.val; omega)
  show k0_pay1 (F := Ideal) (iblk0 V c 0 t) (iblk0 V c 2 t) (iblk0 V c 1 t) (iblk0 V c 3 t) (iblk0 V c 4 t) (ix2 p q)
    = Cert.Sage.hidden (V c main_v22) (V c main_v23) (V c main_v24) (V c main_v25) (fun j => V c main_v26 (ix2 0 j)) (((cfg0.win 5).blk t).view.emb (ix2 p q))
  rw [hemb, Cert.Sage.hidden_ix2]
  refine (payload_apply (iblk0 V c 0 t) (iblk0 V c 1 t) (iblk0 V c 2 t) (iblk0 V c 3 t) (iblk0 V c 4 t) p q).trans ?_
  unfold Cert.Sage.pre
  refine congrArg (fun z => max z Cert.Sage.zeroW) ?_
  refine congrArg₂ (· + ·) (congrArg₂ (· + ·) (Finset.sum_congr rfl fun k _ => ?_) (Finset.sum_congr rfl fun k _ => ?_)) ?_
  · exact congrArg₂ (· * ·) (feat0_read V c t p k r hr) (weight0_read V c t k q)
  · exact congrArg₂ (· * ·) (feat1_read V c t p k r hr) (weight1_read V c t k q)
  · exact bias_read V c t q

/-! ## From the blocks to the array -/

/-- An index of the output array is in point `t`'s block iff each coordinate is in the block's range on its axis. -/
theorem mem_block (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v27).slice (win0_5.rect t)).set ↔ _
  rw [View.set_slice_whole, Rect.mem_set_unit]
  exact Iff.rfl

/-- Every index of the output array lies in the block of the point numbered by its row divided by 2000, and every point writes its block back. -/
theorem cover (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  have hlt : (i 0).val / 2000 < cfg0.N := by show (i 0).val / 2000 < 50; omega
  obtain ⟨-, -, -, -, -, -, -, -, -, -, e0, e1, -⟩ := index_facts ⟨(i 0).val / 2000, hlt⟩
  have e0' : win0_5.index ⟨(i 0).val / 2000, hlt⟩ (0 : Fin 2) = (i 0).val / 2000 := e0
  refine ⟨⟨(i 0).val / 2000, hlt⟩, flush0_5 _, ?_⟩
  rw [mem_block]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    omega
  | ⟨1, _⟩ =>
    show win0_5.index ⟨(i 0).val / 2000, hlt⟩ (1 : Fin 2) * 256 ≤ (i 1).val ∧ (i 1).val < win0_5.index ⟨(i 0).val / 2000, hlt⟩ (1 : Fin 2) * 256 + 256
    omega

/-- Every block of 2000 rows of the output array is written by one grid point from the same rows of the two feature arrays, the two whole weight matrices and the bias row; together the fifty blocks cover the array, so it ends as the hidden layer of the arrays the region found. -/
theorem region0_array (V : (c : Dev nD) → (b : Ref sig .tc) → Buf (Elt Ideal) ((c : Thread nD τ).loc b)) (c : Dev nD) :
    (dat0 (F := Ideal) V c).arrAt 5 cfg0.N
      = Cert.Sage.hidden (V c main_v22) (V c main_v23) (V c main_v24) (V c main_v25) (fun j => V c main_v26 (ix2 0 j)) :=
  (dat0 (F := Ideal) V c).arrAt_eq_of_cover 5
    (Cert.Sage.hidden (V c main_v22) (V c main_v23) (V c main_v24) (V c main_v25) (fun j => V c main_v26 (ix2 0 j)))
    (fun t _ => flushed_eq V c t) cover

end Cert.KernelIdeal.Sage0

end
-- ==== Proof.Region1.lean ====
/-
  Region 1 of the kernel program, read as a value: what its output array holds when the region ends, as one function
  of the arrays the region finds when it is entered.

  The region is a grid of fifty points. Point `t` reads rows `2000 t … 2000 t + 1999` of the two feature arrays, the two
  whole weight matrices and the bias row, and writes rows `2000 t … 2000 t + 1999` of the output array: each row's
  pre-activation (two products of the row with the weights, added, plus the bias) and then the row's log-softmax (the row's
  maximum folded from the bottom element, subtracted; the logarithm of the sum of the exponentials, subtracted). First the
  body's arithmetic is read at one entry of a block; then each block read is located in its array; then the fifty
  written blocks, which tile the output array, are put together.
-/
import proofs.«105512_j51118700757722_1_alg».proof.Proof.Gen.KernelIdeal.Frame
import proofs.«105512_j51118700757722_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## Layout steps of the keepdims reductions, read at an index -/

/-- A column `[a]` cast to `[a, 1]` reads, at `(p, u)`, the operand at `p`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the operand's row `p` at its one entry. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The two row reductions, read at a row -/

/-- Row `p` with the class coordinate `k` put back is the index `(p, k)`. -/
theorem lift_row (p : Fin 2000) (k : Fin 42) : reduces_S2000x42_S2000.lift (ix1 p) k = ix2 p k :=
  funext fun c => Fin.ext (by
    match c with
    | ⟨0, _⟩ => rfl
    | ⟨1, _⟩ => rfl)

/-- The row maximum: the fold of `max` from the bottom word over the row's 42 entries. -/
theorem rowMax_apply (v : FVec Ideal S2000x42 .f32) (p : Fin 2000) :
    multiReduction .maximumf [1] S2000 v 0xFF800000#32 reduces_S2000x42_S2000 (.inl rfl) rfl (ix1 p)
      = Cert.Sage.rowMax (fun j : Fin 42 => v (ix2 p j)) := by
  refine (Ideal.multiReduction_maximumf_single v 0xFF800000#32 reduces_S2000x42_S2000 (.inl rfl) rfl (ix1 p)).trans ?_
  have e : (v ∘ reduces_S2000x42_S2000.lift (ix1 p)) = fun j : Fin 42 => v (ix2 p j) :=
    funext fun k => congrArg v (lift_row p k)
  exact congrArg (fun f => Finset.fold max Cert.Sage.botW f (Finset.univ : Finset (Fin 42))) e

/-- The row sum: the sum of the row's 42 entries, with no initial term. -/
theorem rowSum_apply (v : FVec Ideal S2000x42 .f32) (p : Fin 2000) :
    multiReduction .add [1] S2000 v 0x00000000#32 reduces_S2000x42_S2000 (.inl rfl) rfl (ix1 p)
      = ∑ j : Fin 42, v (ix2 p j) := by
  refine (Ideal.multiReduction_add_single v 0x00000000#32 reduces_S2000x42_S2000 (.inl rfl) rfl (ix1 p)).trans ?_
  exact Finset.sum_congr rfl fun k _ => congrArg v (lift_row p k)

/-! ## The product of a row block with a weight matrix, read at an index

The dimension numbers contract the left operand's axis 1 with the right operand's axis 0; the left operand's index at
output `(p, j)` and contraction coordinate `k` is `(p, k)`, the right operand's `(k, j)`. -/

theorem lhs_dot_0 (i : S2000x42.Idx) (q : Cert.KernelIdeal.dot_S2000x256_S256x42_S2000x42_1_0_0_1_n_n.contr.Idx) :
    (Cert.KernelIdeal.dot_S2000x256_S256x42_S2000x42_1_0_0_1_n_n.lhsIdx i q 0).val = (i 0).val := by
  unfold DotDims.lhsIdx
  rw [dif_neg (show ¬(0 : Fin S2000x256.rank) ∈ Cert.KernelIdeal.dot_S2000x256_S256x42_S2000x42_1_0_0_1_n_n.lhsBatch by decide), dif_pos (show (0 : Fin S2000x256.rank) ∈ Cert.KernelIdeal.dot_S2000x256_S256x42_S2000x42_1_0_0_1_n_n.lhsNonContracting by decide)]
  rfl
theorem lhs_dot_1 (i : S2000x42.Idx) (q : Cert.KernelIdeal.dot_S2000x256_S256x42_S2000x42_1_0_0_1_n_n.contr.Idx) :
    (Cert.KernelIdeal.dot_S2000x256_S256x42_S2000x42_1_0_0_1_n_n.lhsIdx i q 1).val = (q ⟨0, by decide⟩).val :=
  Cert.KernelIdeal.dot_S2000x256_S256x42_S2000x42_1_0_0_1_n_n.lhsIdx_val_of_single rfl i q
theorem rhs_dot_0 (i : S2000x42.Idx) (q : Cert.KernelIdeal.dot_S2000x256_S256x42_S2000x42_1_0_0_1_n_n.contr.Idx) :
    (Cert.KernelIdeal.dot_S2000x256_S256x42_S2000x42_1_0_0_1_n_n.rhsIdx i q 0).val = (q ⟨0, by decide⟩).val :=
  Cert.KernelIdeal.dot_S2000x256_S256x42_S2000x42_1_0_0_1_n_n.rhsIdx_val_of_single rfl i q
theorem rhs_dot_1 (i : S2000x42.Idx) (q : Cert.KernelIdeal.dot_S2000x256_S256x42_S2000x42_1_0_0_1_n_n.contr.Idx) :
    (Cert.KernelIdeal.dot_S2000x256_S256x42_S2000x42_1_0_0_1_n_n.rhsIdx i q 1).val = (i 1).val := by
  unfold DotDims.rhsIdx
  rw [dif_neg (show ¬(1 : Fin S256x42.rank) ∈ Cert.KernelIdeal.dot_S2000x256_S256x42_S2000x42_1_0_0_1_n_n.rhsBatch by decide), dif_pos (show (1 : Fin S256x42.rank) ∈ Cert.KernelIdeal.dot_S2000x256_S256x42_S2000x42_1_0_0_1_n_n.rhsNonContracting by decide)]
  rfl

/-- A product into the zero accumulator at `(p, j)`: the sum over the 256 shared coordinates of the left operand's row `p` against the right operand's column `j`. -/
theorem matmul_zero_apply (a : FVec Ideal S2000x256 .bf16) (b : FVec Ideal S256x42 .bf16) (p : Fin 2000) (j : Fin 42) :
    matmul Cert.KernelIdeal.dot_S2000x256_S256x42_S2000x42_1_0_0_1_n_n none a b (constant (F := Ideal) S2000x42 .f32 0x00000000#32) (ix2 p j)
      = ∑ k : Fin 256, a (ix2 p k) * b (ix2 k j) := by
  refine (Ideal.matmul_constant_zero_apply Cert.KernelIdeal.dot_S2000x256_S256x42_S2000x42_1_0_0_1_n_n none a b (ix2 p j)).trans ?_
  rw [← Equiv.sum_comp (ValueIdx.contrEquiv1 Cert.KernelIdeal.dot_S2000x256_S256x42_S2000x42_1_0_0_1_n_n 256 rfl rfl).symm]
  refine Finset.sum_congr rfl fun k _ => ?_
  have hk := ValueIdx.contrEquiv1_symm_val Cert.KernelIdeal.dot_S2000x256_S256x42_S2000x42_1_0_0_1_n_n 256 rfl rfl k
  have el : Cert.KernelIdeal.dot_S2000x256_S256x42_S2000x42_1_0_0_1_n_n.lhsIdx (ix2 p j) ((ValueIdx.contrEquiv1 Cert.KernelIdeal.dot_S2000x256_S256x42_S2000x42_1_0_0_1_n_n 256 rfl rfl).symm k) = ix2 p k := funext fun ax => Fin.ext (by
    match ax with
    | ⟨0, _⟩ => exact lhs_dot_0 _ _
    | ⟨1, _⟩ => exact (lhs_dot_1 _ _).trans hk)
  have er : Cert.KernelIdeal.dot_S2000x256_S256x42_S2000x42_1_0_0_1_n_n.rhsIdx (ix2 p j) ((ValueIdx.contrEquiv1 Cert.KernelIdeal.dot_S2000x256_S256x42_S2000x42_1_0_0_1_n_n 256 rfl rfl).symm k) = ix2 k j := funext fun ax => Fin.ext (by
    match ax with
    | ⟨0, _⟩ => exact (rhs_dot_0 _ _).trans hk
    | ⟨1, _⟩ => exact rhs_dot_1 _ _)
  rw [el, er]

/-! ## The body's arithmetic at an index -/

/-- The layer before its activation on one block of rows: the two products added, plus the bias row repeated down the rows. -/
def preBlock (x0 x5 : FVec Ideal S2000x256 .bf16) (x2 x7 : FVec Ideal S256x42 .bf16) (x11 : FVec Ideal S1x42 .f32) :
    FVec Ideal S2000x42 .f32 :=
  addf (addf (matmul Cert.KernelIdeal.dot_S2000x256_S256x42_S2000x42_1_0_0_1_n_n none (shapeCast S2000x256 x0 shapeCasts_S2000x256_S2000x256)
                (shapeCast S256x42 x2 shapeCasts_S256x42_S256x42) (constant S2000x42 .f32 0x00000000#32))
             (matmul Cert.KernelIdeal.dot_S2000x256_S256x42_S2000x42_1_0_0_1_n_n none (shapeCast S2000x256 x5 shapeCasts_S2000x256_S2000x256)
                (shapeCast S256x42 x7 shapeCasts_S256x42_S256x42) (constant S2000x42 .f32 0x00000000#32)))
       (broadcastTo S2000x42 (shapeCast S1x42 x11 shapeCasts_S1x42_S1x42) broadcasts_S1x42_S2000x42)

/-- At `(p, j)` it is the layer's pre-activation of row `p`, class `j`. -/
theorem preBlock_apply (x0 x5 : FVec Ideal S2000x256 .bf16) (x2 x7 : FVec Ideal S256x42 .bf16) (x11 : FVec Ideal S1x42 .f32)
    (p : Fin 2000) (j : Fin 42) :
    preBlock x0 x5 x2 x7 x11 (ix2 p j)
      = (∑ k : Fin 256, x0 (ix2 p k) * x2 (ix2 k j) + ∑ k : Fin 256, x5 (ix2 p k) * x7 (ix2 k j)) + x11 (ix2 0 j) := by
  unfold preBlock
  rw [shapeCast_self x0, shapeCast_self x2, shapeCast_self x5, shapeCast_self x7, shapeCast_self x11]
  show (matmul Cert.KernelIdeal.dot_S2000x256_S256x42_S2000x42_1_0_0_1_n_n none x0 x2 (constant S2000x42 .f32 0x00000000#32) (ix2 p j)
        + matmul Cert.KernelIdeal.dot_S2000x256_S256x42_S2000x42_1_0_0_1_n_n none x5 x7 (constant S2000x42 .f32 0x00000000#32) (ix2 p j))
        + broadcastTo S2000x42 x11 broadcasts_S1x42_S2000x42 (ix2 p j) = _
  rw [matmul_zero_apply x0 x2 p j, matmul_zero_apply x5 x7 p j, broadcastTo_1b_ab_apply x11 broadcasts_S1x42_S2000x42 p j]

/-- A block of rows with each row's maximum subtracted. -/
def shiftBlock (z : FVec Ideal S2000x42 .f32) : FVec Ideal S2000x42 .f32 :=
  subf z (broadcastTo S2000x42 (shapeCast S2000x1 (multiReduction .maximumf [1] S2000 z 0xFF800000#32 reduces_S2000x42_S2000 (.inl rfl) rfl)
    shapeCasts_S2000_S2000x1) broadcasts_S2000x1_S2000x42)

theorem shiftBlock_apply (z : FVec Ideal S2000x42 .f32) (p : Fin 2000) (j : Fin 42) :
    shiftBlock z (ix2 p j) = z (ix2 p j) - Cert.Sage.rowMax (fun j' : Fin 42 => z (ix2 p j')) := by
  unfold shiftBlock
  show z (ix2 p j) - broadcastTo S2000x42 _ broadcasts_S2000x1_S2000x42 (ix2 p j) = _
  rw [broadcastTo_a1_ab_apply _ broadcasts_S2000x1_S2000x42 p j, shapeCast_a_a1_apply _ shapeCasts_S2000_S2000x1 p 0, rowMax_apply z p]

/-- A shifted block with the logarithm of each row's sum of exponentials subtracted. -/
def normBlock (s : FVec Ideal S2000x42 .f32) : FVec Ideal S2000x42 .f32 :=
  subf s (broadcastTo S2000x42 (log (shapeCast S2000x1 (multiReduction .add [1] S2000 (exp s) 0x00000000#32 reduces_S2000x42_S2000 (.inl rfl) rfl)
    shapeCasts_S2000_S2000x1)) broadcasts_S2000x1_S2000x42)

theorem normBlock_apply (s : FVec Ideal S2000x42 .f32) (p : Fin 2000) (q : Fin 42) :
    normBlock s (ix2 p q) = s (ix2 p q) - Ideal.log (∑ j : Fin 42, Ideal.exp (s (ix2 p j))) := by
  unfold normBlock
  show s (ix2 p q) - broadcastTo S2000x42 _ broadcasts_S2000x1_S2000x42 (ix2 p q) = _
  rw [broadcastTo_a1_ab_apply _ broadcasts_S2000x1_S2000x42 p q]
  show s (ix2 p q) - Ideal.log (shapeCast S2000x1 _ shapeCasts_S2000_S2000x1 (ix2 p 0)) = _
  rw [shapeCast_a_a1_apply _ shapeCasts_S2000_S2000x1 p 0, rowSum_apply (exp s) p]
  rfl

/-- The body's stored value is the log-softmax, row by row, of the pre-activation block. -/
theorem k1_pay1_eq (x0 x5 : FVec Ideal S2000x256 .bf16) (x2 x7 : FVec Ideal S256x42 .bf16) (x11 : FVec Ideal S1x42 .f32) :
    k1_pay1 (F := Ideal) x0 x2 x5 x7 x11 = normBlock (shiftBlock (preBlock x0 x5 x2 x7 x11)) := rfl

/-- THE BODY AT AN INDEX: entry `(p, q)` of what a grid point stores is the log-softmax, at class `q`, of row `p`'s pre-activation. -/
theorem k1_pay1_apply (x0 x5 : FVec Ideal S2000x256 .bf16) (x2 x7 : FVec Ideal S256x42 .bf16) (x11 : FVec Ideal S1x42 .f32)
    (p : Fin 2000) (q : Fin 42) :
    k1_pay1 (F := Ideal) x0 x2 x5 x7 x11 (ix2 p q)
      = Cert.Sage.logSoftmax (fun j : Fin 42 => (∑ k : Fin 256, x0 (ix2 p k) * x2 (ix2 k j) + ∑ k : Fin 256, x5 (ix2 p k) * x7 (ix2 k j)) + x11 (ix2 0 j)) q := by
  rw [k1_pay1_eq, normBlock_apply]
  simp only [shiftBlock_apply, preBlock_apply]
  rfl

/-! ## From the fifty blocks to the array -/

theorem zero_offsets : (![0, 0] : Fin 2 → Nat) = fun _ => 0 := funext fun a => by fin_cases a <;> rfl

/-- Where each window's block sits at grid point `t`: the two feature windows and the output window at block row `t`,
    the weight and bias windows at the one block there is. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks

variable (V : (c : Dev nD) → (b : Ref sig .tc) → Buf (Elt Ideal) ((c : Thread nD τ).loc b))

/-- The output layer of the arrays the region finds. -/
abbrev outArr (c : Dev nD) : S100000x42.Idx → EReal :=
  Cert.Sage.output (V c main_v47) (V c main_v27) (V c main_v48) (V c main_v49) (fun j => V c main_v50 (ix2 0 j))

/-- Window 0's block at point `t` is rows `2000 t …` of the neighbour-mean array. -/
theorem block0_apply (c : Dev nD) (t : Fin cfg1.N) (p : Fin 2000) (k : Fin 256) (r : Fin 100000)
    (hr : r.val = t.val * 2000 + p.val) :
    iblk1 (F := Ideal) V c 0 t (ix2 p k) = V c main_v47 (ix2 r k) := by
  obtain ⟨e0, e1, -⟩ := block_indices t
  show V c main_v47 (((cfg1.win 0).blk t).view.emb (ix2 p k)) = V c main_v47 (ix2 r k)
  refine congrArg (V c main_v47) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- Window 1's block at point `t` is the same rows of the hidden-layer array. -/
theorem block1_apply (c : Dev nD) (t : Fin cfg1.N) (p : Fin 2000) (k : Fin 256) (r : Fin 100000)
    (hr : r.val = t.val * 2000 + p.val) :
    iblk1 (F := Ideal) V c 1 t (ix2 p k) = V c main_v27 (ix2 r k) := by
  obtain ⟨-, -, e0, e1, -⟩ := block_indices t
  show V c main_v27 (((cfg1.win 1).blk t).view.emb (ix2 p k)) = V c main_v27 (ix2 r k)
  refine congrArg (V c main_v27) (funext fun a => Fin.ext ?_)
  match a with
  | ⟨0, _⟩ => show win1_1.index t (0 : Fin 2) * 2000 + 1 * p.val = r.val; omega
  | ⟨1, _⟩ => show win1_1.index t (1 : Fin 2) * 256 + 1 * k.val = k.val; omega

/-- Window 2's block at every point is the whole first weight matrix. -/
theorem block2_apply (c : Dev nD) (t : Fin cfg1.N) (k : Fin 256) (j : Fin 42) :
    iblk1 (F := Ideal) V c 2 t (ix2 k j) = V c main_v48 (ix2 k j) := by
  obtain ⟨-, -, -, -, e0, e1, -⟩ := block_indices t
  show V c main_v48 (((cfg1.win 2).blk t).view.emb (ix2 k j)) = V c main_v48 (ix2 k j)
  refine congrArg (V c main_v48) (funext fun a => Fin.ext ?_)
  match a with
  | ⟨0, _⟩ => show win1_2.index t (0 : Fin 2) * 256 + 1 * k.val = k.val; omega
  | ⟨1, _⟩ => show win1_2.index t (1 : Fin 2) * 42 + 1 * j.val = j.val; omega

/-- Window 3's block at every point is the whole second weight matrix. -/
theorem block3_apply (c : Dev nD) (t : Fin cfg1.N) (k : Fin 256) (j : Fin 42) :
    iblk1 (F := Ideal) V c 3 t (ix2 k j) = V c main_v49 (ix2 k j) := by
  obtain ⟨-, -, -, -, -, -, e0, e1, -⟩ := block_indices t
  show V c main_v49 (((cfg1.win 3).blk t).view.emb (ix2 k j)) = V c main_v49 (ix2 k j)
  refine congrArg (V c main_v49) (funext fun a => Fin.ext ?_)
  match a with
  | ⟨0, _⟩ => show win1_3.index t (0 : Fin 2) * 256 + 1 * k.val = k.val; omega
  | ⟨1, _⟩ => show win1_3.index t (1 : Fin 2) * 42 + 1 * j.val = j.val; omega

/-- Window 4's block at every point is the bias row. -/
theorem block4_apply (c : Dev nD) (t : Fin cfg1.N) (u : Fin 1) (j : Fin 42) :
    iblk1 (F := Ideal) V c 4 t (ix2 u j) = V c main_v50 (ix2 u j) := by
  obtain ⟨-, -, -, -, -, -, -, -, e0, e1, -⟩ := block_indices t
  show V c main_v50 (((cfg1.win 4).blk t).view.emb (ix2 u j)) = V c main_v50 (ix2 u j)
  refine congrArg (V c main_v50) (funext fun a => Fin.ext ?_)
  match a with
  | ⟨0, _⟩ => show win1_4.index t (0 : Fin 2) * 1 + 1 * u.val = u.val; omega
  | ⟨1, _⟩ => show win1_4.index t (1 : Fin 2) * 42 + 1 * j.val = j.val; omega

/-- WHAT POINT `t` WRITES BACK is block `t` of the output layer of the arrays the region finds: row `p` of the block is row
    `2000 t + p` of the array, whose log-softmax reads that row of the two feature arrays, the weights and the bias. -/
theorem flushed_eq (c : Dev nD) (t : Fin cfg1.N) :
    (dat1 (F := Ideal) V c).flushed 5 t = ((cfg1.win 5).blk t).view.read (Elt Ideal) (outArr V c) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S256x42) zero_offsets,
    View.ld_unit_zero (S := S1x42) zero_offsets]
  obtain ⟨-, -, -, -, -, -, -, -, -, -, e0, e1⟩ := block_indices t
  funext y
  obtain ⟨p, q, rfl⟩ : ∃ (p : Fin 2000) (q : Fin 42), y = ix2 p q := ⟨y 0, y 1, eq_ix2 y⟩
  have ht : t.val < 50 := t.isLt
  have hr : t.val * 2000 + p.val < 100000 := by have := p.isLt; omega
  show k1_pay1 (F := Ideal) (iblk1 V c 0 t) (iblk1 V c 2 t) (iblk1 V c 1 t) (iblk1 V c 3 t) (iblk1 V c 4 t) (ix2 p q)
    = outArr V c (((cfg1.win 5).blk t).view.emb (ix2 p q))
  refine (k1_pay1_apply (iblk1 V c 0 t) (iblk1 V c 1 t) (iblk1 V c 2 t) (iblk1 V c 3 t) (iblk1 V c 4 t) p q).trans ?_
  have hi : ((cfg1.win 5).blk t).view.emb (ix2 p q) = ix2 (⟨t.val * 2000 + p.val, hr⟩ : Fin 100000) q :=
    funext fun a => Fin.ext (by
      match a with
      | ⟨0, _⟩ => show win1_5.index t (0 : Fin 2) * 2000 + 1 * p.val = t.val * 2000 + p.val; omega
      | ⟨1, _⟩ => show win1_5.index t (1 : Fin 2) * 42 + 1 * q.val = q.val; omega)
  rw [hi]
  refine Eq.trans ?_ (Cert.Sage.output_ix2 (V c main_v47) (V c main_v27) (V c main_v48) (V c main_v49)
    (fun j => V c main_v50 (ix2 0 j)) ⟨t.val * 2000 + p.val, hr⟩ q).symm
  refine congrArg (fun a => Cert.Sage.logSoftmax a q) (funext fun j => ?_)
  unfold Cert.Sage.pre
  rw [block4_apply V c t 0 j]
  refine congrArg (· + V c main_v50 (ix2 0 j)) ?_
  refine congrArg₂ (· + ·) (Finset.sum_congr rfl fun k _ => ?_) (Finset.sum_congr rfl fun k _ => ?_)
  · rw [block0_apply V c t p k ⟨t.val * 2000 + p.val, hr⟩ rfl, block2_apply V c t k j]
  · rw [block1_apply V c t p k ⟨t.val * 2000 + p.val, hr⟩ rfl, block3_apply V c t k j]

/-- An index of the output array is in point `t`'s block iff each coordinate is in the block's range on its axis. -/
theorem mem_block (t : Fin cfg1.N) (i : S100000x42.Idx) :
    i ∈ ((cfg1.win 5).blk t).view.set ↔ ∀ a : Fin 2, win1_5.index t a * S2000x42.size a ≤ (i a).val ∧ (i a).val < win1_5.index t a * S2000x42.size a + S2000x42.size a := by
  show i ∈ ((View.whole main_v51).slice (win1_5.rect t)).set ↔ _
  rw [View.set_slice_whole, Rect.mem_set_unit]
  exact Iff.rfl

/-- Every index of the output array lies in the block of the point its row falls in, and every point writes back. -/
theorem covered (i : S100000x42.Idx) :
    ∃ t : Fin cfg1.N, (cfg1.win 5).flush t = true ∧ i ∈ ((cfg1.win 5).blk t).view.set := by
  have hi0 : (i 0).val < 100000 := (i 0).isLt
  have hi1 : (i 1).val < 42 := (i 1).isLt
  refine ⟨⟨(i 0).val / 2000, by show (i 0).val / 2000 < 50; omega⟩, flush1_5 _, ?_⟩
  rw [mem_block]
  obtain ⟨-, -, -, -, -, -, -, -, -, -, e0, e1⟩ := block_indices ⟨(i 0).val / 2000, by show (i 0).val / 2000 < 50; omega⟩
  intro a
  match a with
  | ⟨0, _⟩ =>
    show win1_5.index _ (0 : Fin 2) * 2000 ≤ (i 0).val ∧ (i 0).val < win1_5.index _ (0 : Fin 2) * 2000 + 2000
    rw [e0]
    show (i 0).val / 2000 * 2000 ≤ (i 0).val ∧ (i 0).val < (i 0).val / 2000 * 2000 + 2000
    omega
  | ⟨1, _⟩ =>
    show win1_5.index _ (1 : Fin 2) * 42 ≤ (i 1).val ∧ (i 1).val < win1_5.index _ (1 : Fin 2) * 42 + 42
    rw [e1]
    omega

end Blocks

/-- Every block of 2000 rows of the output array is written by one grid point from the same rows of the two feature arrays, the two whole weight matrices and the bias row; a row's log-softmax reads only that row, so the fifty blocks together are the output layer of the arrays the region found. -/
theorem region1_array (V : (c : Dev nD) → (b : Ref sig .tc) → Buf (Elt Ideal) ((c : Thread nD τ).loc b)) (c : Dev nD) :
    (dat1 (F := Ideal) V c).arrAt 5 cfg1.N
      = Cert.Sage.output (V c main_v47) (V c main_v27) (V c main_v48) (V c main_v49) (fun j => V c main_v50 (ix2 0 j)) :=
  (dat1 (F := Ideal) V c).arrAt_eq_of_cover 5 (outArr V c) (fun t _ => flushed_eq V c t) (covered)

end Cert.KernelIdeal.Sage1

end
-- ==== Proof.KernelValue.lean ====
/-
  The kernel program's result as one function of its eight argument arrays.

  Read from the end: the result array is what the second region's write-backs leave, the output layer of the arrays
  that region finds; those are the neighbour mean of the hidden features, the hidden features themselves, and the
  second layer's weights and bias; the hidden features are what the first region's write-backs leave, the hidden layer
  of the neighbour mean of the input features, the input features, and the first layer's weights and bias. Narrowing
  and widening a float changes no extended real, so the casts between the stages drop out.
-/
import proofs.«105512_j51118700757722_1_alg».proof.Proof.HostK
import proofs.«105512_j51118700757722_1_alg».proof.Proof.Region0
import proofs.«105512_j51118700757722_1_alg».proof.Proof.Region1
import Idealize.ShloMosaic.Lib.ValueLayout

set_option maxRecDepth 16384

noncomputable section

namespace Cert.KernelIdeal.Net

open Cert.KernelIdeal Cert.KernelIdeal.Gen Cert.KernelIdeal.Mean Cert.KernelIdeal.HostK
open Idealize.ShloMosaic Idealize.ShloMosaic.TcCoe Idealize.ShloMosaic.ValueIdx Idealize.SL.Sem

/-- The two-layer network on the extended reals: the hidden layer of the neighbour mean and the features, then the
    output layer of the hidden features' neighbour mean and the hidden features. -/
def net (x : (⟨S100000x602, .f32⟩ : BufTy).Contents (Elt Ideal)) (e : (⟨S2x400000, .i32⟩ : BufTy).Contents (Elt Ideal))
    (wl1 : (⟨S602x256, .f32⟩ : BufTy).Contents (Elt Ideal)) (b1 : (⟨S256, .f32⟩ : BufTy).Contents (Elt Ideal))
    (wr1 : (⟨S602x256, .f32⟩ : BufTy).Contents (Elt Ideal)) (wl2 : (⟨S256x42, .f32⟩ : BufTy).Contents (Elt Ideal))
    (b2 : (⟨S42, .f32⟩ : BufTy).Contents (Elt Ideal)) (wr2 : (⟨S256x42, .f32⟩ : BufTy).Contents (Elt Ideal)) :
    (⟨S100000x42, .f32⟩ : BufTy).Contents (Elt Ideal) :=
  Cert.Sage.output
    (mean256 (Cert.Sage.hidden (mean602 x (srcRow e) (dstRow e)) x wl1 wr1 (fun j => b1 (ix1 j))) (srcRow e) (dstRow e))
    (Cert.Sage.hidden (mean602 x (srcRow e) (dstRow e)) x wl1 wr1 (fun j => b1 (ix1 j)))
    wl2 wr2 (fun j => b2 (ix1 j))

variable (m : (ℓ : Loc nD τ sig) → Buf (Elt Ideal) ℓ) (ρ : Dev nD → PrngReg)

/-- Narrowing a float array changes no extended real. -/
theorem truncf_id {s : Shape} {φ ψ : FTy} (a : FVec Ideal s φ) (h : ψ.bits < φ.bits) : (truncf ψ a h : FVec Ideal s ψ) = a := rfl
/-- Widening a float array changes no extended real. -/
theorem extf_id {s : Shape} {φ ψ : FTy} (a : FVec Ideal s φ) (h : φ.bits < ψ.bits) : (extf ψ a h : FVec Ideal s ψ) = a := rfl

/-! Each layer and each neighbour mean is a function of its operands: equal operands, equal values. Stated once, so that
    the chain below is a composition of equations and no boundary's contents is ever opened. -/

theorem hidden_congr {M M' X X' : (⟨2, ![100000, 602]⟩ : Shape).Idx → EReal} {Wl Wl' Wr Wr' : (⟨2, ![602, 256]⟩ : Shape).Idx → EReal}
    {b b' : Fin 256 → EReal} (hM : M = M') (hX : X = X') (hWl : Wl = Wl') (hWr : Wr = Wr') (hb : b = b') :
    Cert.Sage.hidden M X Wl Wr b = Cert.Sage.hidden M' X' Wl' Wr' b' := by
  subst hM hX hWl hWr hb; rfl

theorem output_congr {M M' H H' : (⟨2, ![100000, 256]⟩ : Shape).Idx → EReal} {Wl Wl' Wr Wr' : (⟨2, ![256, 42]⟩ : Shape).Idx → EReal}
    {b b' : Fin 42 → EReal} (hM : M = M') (hH : H = H') (hWl : Wl = Wl') (hWr : Wr = Wr') (hb : b = b') :
    Cert.Sage.output M H Wl Wr b = Cert.Sage.output M' H' Wl' Wr' b' := by
  subst hM hH hWl hWr hb; rfl

theorem mean256_congr {h h' : (⟨S100000x256, .f32⟩ : BufTy).Contents (Elt Ideal)} {s s' d d' : (⟨S400000, .i32⟩ : BufTy).Contents (Elt Ideal)}
    (hh : h = h') (hs : s = s') (hd : d = d') : mean256 h s d = mean256 h' s' d' := by
  subst hh hs hd; rfl

/-- The hidden features the second region finds are the hidden layer of the launch arrays. -/
theorem hidden_features (c : Dev nD) :
    V2 m ρ c main_v27
      = Cert.Sage.hidden
          (mean602 (m ((c : Thread nD τ).loc main_arg0)) (srcRow (m ((c : Thread nD τ).loc main_arg1))) (dstRow (m ((c : Thread nD τ).loc main_arg1))))
          (m ((c : Thread nD τ).loc main_arg0)) (m ((c : Thread nD τ).loc main_arg2)) (m ((c : Thread nD τ).loc main_arg4))
          (fun j => m ((c : Thread nD τ).loc main_arg3) (ix1 j)) :=
  (V2_h m ρ c).trans ((Cert.KernelIdeal.Sage0.region0_array (V1 m ρ) c).trans
    (hidden_congr
      ((V1_mean m ρ c).trans (truncf_id (s := S100000x602) (φ := .f32) (ψ := .bf16) _ _))
      ((V1_x m ρ c).trans (truncf_id (s := S100000x602) (φ := .f32) (ψ := .bf16) _ _))
      ((V1_wl m ρ c).trans (truncf_id (s := S602x256) (φ := .f32) (ψ := .bf16) _ _))
      ((V1_wr m ρ c).trans (truncf_id (s := S602x256) (φ := .f32) (ψ := .bf16) _ _))
      (funext fun j => (congrFun (V1_b m ρ c) (ix2 0 j)).trans (shapeCast_a_1a_apply _ _ 0 j))))

/-- The result array after the run is the network of the launch arrays. -/
theorem result_eq (c : Dev nD) :
    W4 m ρ c (Proc.devRef .tc main_v51)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  (W4_result m ρ c).trans ((Cert.KernelIdeal.Sage1.region1_array (V3 m ρ) c).trans
    (output_congr
      ((V3_mean m ρ c).trans ((truncf_id (s := S100000x256) (φ := .f32) (ψ := .bf16) _ _).trans
        (mean256_congr ((extf_id (s := S100000x256) (φ := .bf16) (ψ := .f32) _ _).trans (hidden_features m ρ c)) (V2_src m ρ c) (V2_dst m ρ c))))
      ((V3_h m ρ c).trans (hidden_features m ρ c))
      ((V3_wl m ρ c).trans ((truncf_id (s := S256x42) (φ := .f32) (ψ := .bf16) _ _).trans (V2_wl m ρ c)))
      ((V3_wr m ρ c).trans ((truncf_id (s := S256x42) (φ := .f32) (ψ := .bf16) _ _).trans (V2_wr m ρ c)))
      (funext fun j => (congrFun (V3_b m ρ c) (ix2 0 j)).trans ((shapeCast_a_1a_apply _ _ 0 j).trans (congrFun (V2_b m ρ c) (ix1 j))))))

end Cert.KernelIdeal.Net

end
-- ==== Proof.RefValue.lean ====
/-
  The reference program's first layer, read at an index: the stage that holds the hidden features is the hidden layer
  of the neighbour-mean stage and the input arrays. The reference adds the bias before the second matrix product where the
  kernel adds it after; on the extended reals the two sums are the same number.
-/
import proofs.«105512_j51118700757722_1_alg».proof.Proof.RefRead
import proofs.«105512_j51118700757722_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Net

open Cert.ReferenceIdeal Cert.ReferenceIdeal.ReadP
open Idealize.ShloMosaic Idealize.ShloMosaic.TcCoe Idealize.ShloMosaic.ValueIdx Idealize.SL.Sem

/-- The hidden stage is the hidden layer of the first neighbour-mean stage, the features, the two weight matrices and
    the bias. -/
theorem hidden_eq (x0 : (⟨S100000x602, .f32⟩ : BufTy).Contents (Elt Ideal)) (x1 : (⟨S2x400000, .i32⟩ : BufTy).Contents (Elt Ideal))
    (x2 : (⟨S602x256, .f32⟩ : BufTy).Contents (Elt Ideal)) (x3 : (⟨S256, .f32⟩ : BufTy).Contents (Elt Ideal))
    (x4 : (⟨S602x256, .f32⟩ : BufTy).Contents (Elt Ideal)) :
    val_main_v28 (F := Ideal) x0 x1 x2 x3 x4
      = Cert.Sage.hidden (val_main_v21 (F := Ideal) x0 x1) x0 x2 x4 (fun j => x3 (ix1 j)) := by
  funext i
  obtain ⟨r, j, rfl⟩ : ∃ (r : Fin 100000) (j : Fin 256), i = ix2 r j := ⟨i 0, i 1, eq_ix2 i⟩
  -- the stage at (r, j), one operation at a time: max (((Σ_k M[r,k]·Wl[k,j]) + b[j]) + Σ_k X[r,k]·Wr[k,j]) 0
  rw [Cert.Sage.hidden_ix2, val_main_v28_apply, val_main_v27_apply, val_main_v25_apply, val_main_v22_apply,
    val_main_v24_apply, val_main_v23_apply, val_main_v26_apply, val_main_call0_v0_apply, val_main_call0_cst_apply]
  generalize val_main_v21 (F := Ideal) x0 x1 = M
  -- the two products read row r of the left matrix and column j of the right one; the bias is read at j
  have elM : ∀ k : Fin 602, lidx_main_v22 (ix2 r j) k = ix2 r k := fun k =>
    funext fun a => Fin.ext (by match a with | ⟨0, _⟩ => rfl | ⟨1, _⟩ => rfl)
  have erM : ∀ k : Fin 602, ridx_main_v22 (ix2 r j) k = ix2 k j := fun k =>
    funext fun a => Fin.ext (by match a with | ⟨0, _⟩ => rfl | ⟨1, _⟩ => rfl)
  have elX : ∀ k : Fin 602, lidx_main_v26 (ix2 r j) k = ix2 r k := fun k =>
    funext fun a => Fin.ext (by match a with | ⟨0, _⟩ => rfl | ⟨1, _⟩ => rfl)
  have erX : ∀ k : Fin 602, ridx_main_v26 (ix2 r j) k = ix2 k j := fun k =>
    funext fun a => Fin.ext (by match a with | ⟨0, _⟩ => rfl | ⟨1, _⟩ => rfl)
  have eb : idx_main_v23 (idx_main_v24 (ix2 r j)) = ix1 j :=
    funext fun a => Fin.ext (by match a with | ⟨0, _⟩ => rfl)
  -- adding the bias before the second product or after it is the same number
  rw [← Cert.Sage.pre_bias_first]
  simp only [elM, erM, elX, erX, eb, Ideal.maximumf_def, Ideal.addf_def, Ideal.ofBits_def]

end Cert.ReferenceIdeal.Net

end
-- ==== Proof.RefValueOut.lean ====
/-
  The reference program's second layer, read at an index: the result stage is the output layer (the log-softmax of the
  class scores) of the second neighbour-mean stage and the hidden stage. The reference adds the bias before the second matrix product where the
  kernel adds it after; on the extended reals the two sums are the same number.
-/
import proofs.«105512_j51118700757722_1_alg».proof.Proof.RefRead
import proofs.«105512_j51118700757722_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Net

open Cert.ReferenceIdeal Cert.ReferenceIdeal.ReadP
open Idealize.ShloMosaic Idealize.ShloMosaic.TcCoe Idealize.ShloMosaic.ValueIdx Idealize.SL.Sem

/-- Node `r` with the class coordinate `k` put back is the index `(r, k)`. -/
theorem lift_row (h : S100000x42.Reduces [1] S100000) (r : Fin 100000) (k : Fin 42) : h.lift (ix1 r) k = ix2 r k :=
  funext fun c => Fin.ext (by
    match c with
    | ⟨0, _⟩ => rfl
    | ⟨1, _⟩ => rfl)

/-- A reduce with a maximum body over the class axis, from the bottom word: at node `r` it is the fold of `max` from the
    bottom element over the node's 42 entries (`max` is commutative and associative, so the fold has no order). -/
theorem hostRowMax (Z : FVec Ideal S100000x42 .f32) (h' : S100000x42.ReducesTo [1] S100000) (h : S100000x42.Reduces [1] S100000)
    (hu : 0 < S_.numel) (r : Fin 100000) :
    Host.reduce FloatOps.maximumf Z (constant (F := Ideal) S_ .f32 0xFF800000#32) h' hu (ix1 r)
      = Cert.Sage.rowMax (fun j : Fin 42 => Z (ix2 r j)) := by
  rw [Host.reduce_eq_fold_single FloatOps.maximumf Z _ h' h hu]
  have hf : (Z ∘ h.lift (ix1 r)) = fun j : Fin 42 => Z (ix2 r j) := funext fun k => congrArg Z (lift_row h r k)
  exact congrArg (fun f => Finset.fold max Cert.Sage.botW f (Finset.univ : Finset (Fin 42))) hf

section Stages

variable (x0 : (⟨S100000x602, .f32⟩ : BufTy).Contents (Elt Ideal)) (x1 : (⟨S2x400000, .i32⟩ : BufTy).Contents (Elt Ideal))
  (x2 : (⟨S602x256, .f32⟩ : BufTy).Contents (Elt Ideal)) (x3 : (⟨S256, .f32⟩ : BufTy).Contents (Elt Ideal))
  (x4 : (⟨S602x256, .f32⟩ : BufTy).Contents (Elt Ideal)) (x5 : (⟨S256x42, .f32⟩ : BufTy).Contents (Elt Ideal))
  (x6 : (⟨S42, .f32⟩ : BufTy).Contents (Elt Ideal)) (x7 : (⟨S256x42, .f32⟩ : BufTy).Contents (Elt Ideal))

/-- THE CLASS SCORES: the stage before the log-softmax, at node `r` and class `j`, is the layer's pre-activation. The
    reference adds the bias to the first product and then the second product; moving the bias to the end is
    commutativity and associativity of the sum. -/
theorem scores_apply (r : Fin 100000) (j : Fin 42) :
    val_main_v52 (F := Ideal) x0 x1 x2 x3 x4 x5 x6 x7 (ix2 r j)
      = Cert.Sage.pre (val_main_v46 (F := Ideal) x0 x1 x2 x3 x4) (val_main_v28 (F := Ideal) x0 x1 x2 x3 x4) x5 x7 (fun j => x6 (ix1 j)) r j := by
  refine Eq.trans ?_ (Cert.Sage.pre_bias_first (val_main_v46 (F := Ideal) x0 x1 x2 x3 x4) (val_main_v28 (F := Ideal) x0 x1 x2 x3 x4) x5 x7 (fun j => x6 (ix1 j)) r j)
  rw [val_main_v52_apply, val_main_v50_apply, val_main_v47_apply, val_main_v51_apply, val_main_v49_apply, val_main_v48_apply]
  have a1 : ∀ k : Fin 256, lidx_main_v47 (ix2 r j) k = ix2 r k := fun k => funext fun a => Fin.ext (by
    match a with | ⟨0, _⟩ => rfl | ⟨1, _⟩ => rfl)
  have a2 : ∀ k : Fin 256, ridx_main_v47 (ix2 r j) k = ix2 k j := fun k => funext fun a => Fin.ext (by
    match a with | ⟨0, _⟩ => rfl | ⟨1, _⟩ => rfl)
  have a3 : ∀ k : Fin 256, lidx_main_v51 (ix2 r j) k = ix2 r k := fun k => funext fun a => Fin.ext (by
    match a with | ⟨0, _⟩ => rfl | ⟨1, _⟩ => rfl)
  have a4 : ∀ k : Fin 256, ridx_main_v51 (ix2 r j) k = ix2 k j := fun k => funext fun a => Fin.ext (by
    match a with | ⟨0, _⟩ => rfl | ⟨1, _⟩ => rfl)
  have a5 : idx_main_v48 (idx_main_v49 (ix2 r j)) = ix1 j := funext fun a => Fin.ext (by
    match a with | ⟨0, _⟩ => rfl)
  simp only [a1, a2, a3, a4, a5]
  rfl

/-- THE ROW MAXIMUM: the reduce with a maximum body from the bottom word, at node `r`, is the fold of `max` from the
    bottom element over the node's 42 class scores (`max` is commutative and associative, so the fold has no order). -/
theorem rowMax_stage (r : Fin 100000) :
    val_main_call1_v0 (F := Ideal) x0 x1 x2 x3 x4 x5 x6 x7 (ix1 r)
      = Cert.Sage.rowMax (fun j : Fin 42 => val_main_v52 (F := Ideal) x0 x1 x2 x3 x4 x5 x6 x7 (ix2 r j)) := by
  unfold val_main_call1_v0
  exact hostRowMax (val_main_v52 (F := Ideal) x0 x1 x2 x3 x4 x5 x6 x7) _ (by decide) _ r

/-- THE SHIFTED SCORES: each score minus its node's maximum. The reference takes the maximum once more against the bottom
    element before subtracting; the fold already starts there, so nothing changes. -/
theorem shifted_apply (r : Fin 100000) (j : Fin 42) :
    val_main_call1_v5 (F := Ideal) x0 x1 x2 x3 x4 x5 x6 x7 (ix2 r j)
      = val_main_v52 (F := Ideal) x0 x1 x2 x3 x4 x5 x6 x7 (ix2 r j) - Cert.Sage.rowMax (fun j' : Fin 42 => val_main_v52 (F := Ideal) x0 x1 x2 x3 x4 x5 x6 x7 (ix2 r j')) := by
  rw [val_main_call1_v5_apply, val_main_call1_v4_apply, val_main_call1_v3_apply, val_main_call1_v2_apply,
    val_main_call1_v1_apply, val_main_call1_cst_0_apply]
  have e : idx_main_call1_v3 (idx_main_call1_v4 (ix2 r j)) = ix1 r := funext fun a => Fin.ext (by
    match a with | ⟨0, _⟩ => rfl)
  rw [e, rowMax_stage x0 x1 x2 x3 x4 x5 x6 x7 r]
  show val_main_v52 (F := Ideal) x0 x1 x2 x3 x4 x5 x6 x7 (ix2 r j) - max Cert.Sage.botW (Cert.Sage.rowMax (fun j' : Fin 42 => val_main_v52 (F := Ideal) x0 x1 x2 x3 x4 x5 x6 x7 (ix2 r j'))) = _
  rw [Cert.Sage.max_botW_rowMax]

/-- THE LOG OF THE SUM OF EXPONENTIALS: at node `r`, whatever the class, the logarithm of the sum over the 42 classes of the
    exponentials of the shifted scores; the sum's initial value is the zero word, which is the real zero. -/
theorem logSum_apply (r : Fin 100000) (j : Fin 42) :
    val_main_call1_v10 (F := Ideal) x0 x1 x2 x3 x4 x5 x6 x7 (ix2 r j)
      = Ideal.log (∑ k : Fin 42, Ideal.exp (val_main_call1_v5 (F := Ideal) x0 x1 x2 x3 x4 x5 x6 x7 (ix2 r k))) := by
  rw [val_main_call1_v10_apply, val_main_call1_v9_apply, val_main_call1_v8_apply]
  have e : idx_main_call1_v8 (idx_main_call1_v10 (ix2 r j)) = ix1 r := funext fun a => Fin.ext (by
    match a with | ⟨0, _⟩ => rfl)
  rw [e, val_main_call1_v7_apply]
  have hz : (val_main_call1_cst_1 (F := Ideal)) (Shape.Idx.first Gen.h_S_) = 0 := Ideal.ofBits_zero_f32
  rw [hz, zero_add]
  rw [Ideal.hostUnary_log_def]
  refine congrArg Ideal.log ?_
  refine Finset.sum_congr rfl fun k _ => ?_
  have e7 : idx_main_call1_v7 (ix1 r) k = ix2 r k := funext fun a => Fin.ext (by
    match a with | ⟨0, _⟩ => rfl | ⟨1, _⟩ => rfl)
  rw [e7, val_main_call1_v6_apply, Ideal.hostUnary_exp_def]

end Stages

/-- The result stage is the output layer of the second neighbour-mean stage, the hidden stage, the two weight matrices
    and the bias. -/
theorem output_eq (x0 : (⟨S100000x602, .f32⟩ : BufTy).Contents (Elt Ideal)) (x1 : (⟨S2x400000, .i32⟩ : BufTy).Contents (Elt Ideal))
    (x2 : (⟨S602x256, .f32⟩ : BufTy).Contents (Elt Ideal)) (x3 : (⟨S256, .f32⟩ : BufTy).Contents (Elt Ideal))
    (x4 : (⟨S602x256, .f32⟩ : BufTy).Contents (Elt Ideal)) (x5 : (⟨S256x42, .f32⟩ : BufTy).Contents (Elt Ideal))
    (x6 : (⟨S42, .f32⟩ : BufTy).Contents (Elt Ideal)) (x7 : (⟨S256x42, .f32⟩ : BufTy).Contents (Elt Ideal)) :
    val_main_v53 (F := Ideal) x0 x1 x2 x3 x4 x5 x6 x7
      = Cert.Sage.output (val_main_v46 (F := Ideal) x0 x1 x2 x3 x4) (val_main_v28 (F := Ideal) x0 x1 x2 x3 x4) x5 x7 (fun j => x6 (ix1 j)) := by
  funext i
  obtain ⟨r, j, rfl⟩ : ∃ (r : Fin 100000) (j : Fin 42), i = ix2 r j := ⟨i 0, i 1, eq_ix2 i⟩
  rw [Cert.Sage.output_ix2, val_main_v53_apply, logSum_apply, shifted_apply]
  simp only [shifted_apply, scores_apply]
  rfl

end Cert.ReferenceIdeal.Net

end
-- ==== Proof.Bridge.lean ====
/-
  The two programs compute one function. The reference's result stage is the output layer of its second neighbour-mean
  stage and its hidden stage; its hidden stage is the hidden layer of its first neighbour-mean stage; and its two
  neighbour-mean stages are the very chains of host operations the kernel program applies (the same gather, the same two
  scatters, the same division, over the same shapes), so they are the same functions of the same operands. Hence the
  reference's result is the network `net` of its arguments, which is what the kernel program's result array holds.
-/
import proofs.«105512_j51118700757722_1_alg».proof.Proof.KernelValue
import proofs.«105512_j51118700757722_1_alg».proof.Proof.RefValue
import proofs.«105512_j51118700757722_1_alg».proof.Proof.RefValueOut

set_option maxRecDepth 16384

noncomputable section

namespace Cert.Bridge

open Idealize.ShloMosaic Idealize.ShloMosaic.TcCoe Idealize.ShloMosaic.ValueIdx
open Cert.KernelIdeal.Mean

section Chains
variable {F : FTy → Type} [FloatOps F]

/-- The reference's first neighbour-mean stage is the shared chain on the features and the two rows of the edge list.
    (Both sides are the same operations in the same order; only the programs' separately stated shape records differ in
    name.) -/
theorem mean602_eq (x0 : (⟨Cert.ReferenceIdeal.S100000x602, .f32⟩ : BufTy).Contents (Elt F))
    (x1 : (⟨Cert.ReferenceIdeal.S2x400000, .i32⟩ : BufTy).Contents (Elt F)) :
    Cert.ReferenceIdeal.ReadP.val_main_v21 (F := F) x0 x1 = mean602 (F := F) x0 (srcRow x1) (dstRow x1) := rfl

/-- The reference's second neighbour-mean stage is the shared chain on its hidden stage. -/
theorem mean256_eq (x0 : (⟨Cert.ReferenceIdeal.S100000x602, .f32⟩ : BufTy).Contents (Elt F))
    (x1 : (⟨Cert.ReferenceIdeal.S2x400000, .i32⟩ : BufTy).Contents (Elt F))
    (x2 : (⟨Cert.ReferenceIdeal.S602x256, .f32⟩ : BufTy).Contents (Elt F)) (x3 : (⟨Cert.ReferenceIdeal.S256, .f32⟩ : BufTy).Contents (Elt F))
    (x4 : (⟨Cert.ReferenceIdeal.S602x256, .f32⟩ : BufTy).Contents (Elt F)) :
    Cert.ReferenceIdeal.ReadP.val_main_v46 (F := F) x0 x1 x2 x3 x4
      = mean256 (F := F) (Cert.ReferenceIdeal.ReadP.val_main_v28 (F := F) x0 x1 x2 x3 x4) (srcRow x1) (dstRow x1) := rfl

end Chains

/-- The reference's result stage is the network of its arguments. -/
theorem ref_net (x0 : (⟨Cert.ReferenceIdeal.S100000x602, .f32⟩ : BufTy).Contents (Elt Ideal))
    (x1 : (⟨Cert.ReferenceIdeal.S2x400000, .i32⟩ : BufTy).Contents (Elt Ideal))
    (x2 : (⟨Cert.ReferenceIdeal.S602x256, .f32⟩ : BufTy).Contents (Elt Ideal)) (x3 : (⟨Cert.ReferenceIdeal.S256, .f32⟩ : BufTy).Contents (Elt Ideal))
    (x4 : (⟨Cert.ReferenceIdeal.S602x256, .f32⟩ : BufTy).Contents (Elt Ideal)) (x5 : (⟨Cert.ReferenceIdeal.S256x42, .f32⟩ : BufTy).Contents (Elt Ideal))
    (x6 : (⟨Cert.ReferenceIdeal.S42, .f32⟩ : BufTy).Contents (Elt Ideal)) (x7 : (⟨Cert.ReferenceIdeal.S256x42, .f32⟩ : BufTy).Contents (Elt Ideal)) :
    Cert.ReferenceIdeal.ReadP.val_main_v53 (F := Ideal) x0 x1 x2 x3 x4 x5 x6 x7
      = Cert.KernelIdeal.Net.net x0 x1 x2 x3 x4 x5 x6 x7 := by
  have hH : Cert.ReferenceIdeal.ReadP.val_main_v28 (F := Ideal) x0 x1 x2 x3 x4
      = Cert.Sage.hidden (mean602 (F := Ideal) x0 (srcRow x1) (dstRow x1)) x0 x2 x4 (fun j => x3 (ix1 j)) :=
    (Cert.ReferenceIdeal.Net.hidden_eq x0 x1 x2 x3 x4).trans
      (Cert.KernelIdeal.Net.hidden_congr (mean602_eq (F := Ideal) x0 x1) rfl rfl rfl rfl)
  refine (Cert.ReferenceIdeal.Net.output_eq x0 x1 x2 x3 x4 x5 x6 x7).trans ?_
  exact Cert.KernelIdeal.Net.output_congr
    ((mean256_eq (F := Ideal) x0 x1 x2 x3 x4).trans (Cert.KernelIdeal.Net.mean256_congr hH rfl rfl))
    hH rfl rfl rfl

end Cert.Bridge

end
-- ==== Proof.lean ====
/-
  A two-layer GraphSAGE network on a graph of 100000 nodes and 400000 edges: the kernel program computes each layer's
  dense part (the neighbour mean against `Wl`, the node's own features against `Wr`, the bias, then the rectifier or the
  row-wise log-softmax) in a grid of fifty blocks of 2000 rows, between host stretches that gather, scatter and divide
  to form the neighbour means; the reference computes the same layers with whole-array products.

  Read on the extended reals, where a change of float format is the identity and every operation is exact:
  * each kernel region leaves in its output array one whole-array function of the arrays it finds (a row of the output
    depends only on the same row of the inputs, so the fifty blocks are restrictions of that function and cover the
    array): the hidden layer, resp. the output layer;
  * the host stretches before the regions are the neighbour mean, a chain of operations the reference applies verbatim
    and which is carried as one function and never opened;
  * the reference adds the bias before the second matrix product where the kernel adds it after: the same number, since
    addition of extended reals is commutative and associative (no finiteness is used; the precondition is never opened);
  * the reference's extra maximum with the bottom element in its log-softmax changes nothing, the row maximum being
    folded from that element already.
  So both programs end with the network `net` of their arguments. The three frames are the programs' runs with the
  result dropped; the idealization rewrote no operation, so `preserves` asks nothing.
-/
import proofs.«105512_j51118700757722_1_alg».proof.Defs
import proofs.«105512_j51118700757722_1_alg».proof.Proof.Gen.Kernel
import proofs.«105512_j51118700757722_1_alg».proof.Proof.Gen.Kernel.Skeleton
import proofs.«105512_j51118700757722_1_alg».proof.Proof.Gen.Kernel.Launch
import proofs.«105512_j51118700757722_1_alg».proof.Proof.Gen.Kernel.Points
import proofs.«105512_j51118700757722_1_alg».proof.Proof.Gen.Kernel.Frame
import proofs.«105512_j51118700757722_1_alg».proof.Proof.Gen.KernelIdeal
import proofs.«105512_j51118700757722_1_alg».proof.Proof.Gen.KernelIdeal.Skeleton
import proofs.«105512_j51118700757722_1_alg».proof.Proof.Gen.KernelIdeal.Launch
import proofs.«105512_j51118700757722_1_alg».proof.Proof.Gen.KernelIdeal.Points
import proofs.«105512_j51118700757722_1_alg».proof.Proof.Gen.KernelIdeal.Frame
import proofs.«105512_j51118700757722_1_alg».proof.Proof.Gen.ReferenceIdeal
import proofs.«105512_j51118700757722_1_alg».proof.Proof.Gen.Pre_finite_inputs
import proofs.«105512_j51118700757722_1_alg».proof.Proof.KernelRun
import proofs.«105512_j51118700757722_1_alg».proof.Proof.RefRunHand
import proofs.«105512_j51118700757722_1_alg».proof.Proof.Bridge
import Idealize.ShloMosaic.Adequacy
import Idealize.ShloMosaic.Init

set_option maxRecDepth 16384

noncomputable section

namespace Cert.Proof

open Idealize.ShloMosaic Idealize.SL.Sem

/-- The kernel program runs and keeps its arguments, as printed (at the word level). -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RunH.run (F := Ideal) m ρ)

/-- From memories that agree on the eight arguments both idealized programs end with the same result array: the
    network of the arguments. -/
theorem algebraic : Cert.algebraic_KernelIdeal_ReferenceIdeal := by
  intro m ρ m' ρ' _ hagree
  refine ⟨fun c => Cert.KernelIdeal.Net.net
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Net.result_eq m ρ c), (h c).2⟩)
      (Cert.KernelIdeal.RunP.run_result (F := Ideal) m ρ)
  · refine (θ_run Cert.ReferenceIdeal.defs _ _).mono (fun r h c => ⟨(h c).1.trans ?_, (h c).2⟩)
      (Cert.ReferenceIdeal.RunH.run (F := Ideal) m' ρ')
    obtain ⟨h0, h1, h2, h3, h4, h5, h6, h7⟩ := hagree c
    rw [h0, h1, h2, h3, h4, h5, h6, h7]
    exact Cert.Bridge.ref_net _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
